-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S16384x128 .f32) (main_arg1 : FVec F S16384x16384 .f32) (main_arg2 : FVec F S128x128 .f32) (main_arg3 : FVec F S128 .f32) (main_arg4 : FVec F S128x64 .f32) (main_arg5 : FVec F S64 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1024x128 : Shape := ⟨2, ![1024, 128]⟩
abbrev S2048x1024 : Shape := ⟨2, ![2048, 1024]⟩
abbrev S2048x128 : Shape := ⟨2, ![2048, 128]⟩
abbrev S1x128 : Shape := ⟨2, ![1, 128]⟩
abbrev S16384x64 : Shape := ⟨2, ![16384, 64]⟩
abbrev S2048x64 : Shape := ⟨2, ![2048, 64]⟩
abbrev S1024x64 : Shape := ⟨2, ![1024, 64]⟩
abbrev S1x64 : Shape := ⟨2, ![1, 64]⟩

abbrev nBuf : Space → Nat
  | .hbm => 8
  | .vmem => 18
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S16384x128, .f32⟩
  | .hbm, ⟨7, _⟩ => ⟨S16384x64, .f32⟩
  | .local _ .vmem, ⟨0, _⟩ => ⟨S1024x128, .f32⟩
  | .local _ .vmem, ⟨1, _⟩ => ⟨S1024x128, .f32⟩
  | .local _ .vmem, ⟨2, _⟩ => ⟨S2048x1024, .f32⟩
  | .local _ .vmem, ⟨3, _⟩ => ⟨S2048x1024, .f32⟩
  | .local _ .vmem, ⟨4, _⟩ => ⟨S128x128, .f32⟩
  | .local _ .vmem, ⟨5, _⟩ => ⟨S128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S1024x128, .f32⟩
  | .local _ .vmem, ⟨10, _⟩ => ⟨S1024x128, .f32⟩
  | .local _ .vmem, ⟨11, _⟩ => ⟨S2048x1024, .f32⟩
  | .local _ .vmem, ⟨12, _⟩ => ⟨S2048x1024, .f32⟩
  | .local _ .vmem, ⟨13, _⟩ => ⟨S128x64, .f32⟩
  | .local _ .vmem, ⟨14, _⟩ => ⟨S64, .f32⟩
  | .local _ .vmem, ⟨15, _⟩ => ⟨S2048x64, .f32⟩
  | .local _ .vmem, ⟨16, _⟩ => ⟨S2048x64, .f32⟩
  | .local _ .vmem, ⟨17, _⟩ => ⟨S2048x64, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v17 : BitVec 1 := Scalar.cmpi .eq arg1 c15_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v18 : BitVec 1 := Scalar.cmpi .eq arg1 c15_i32
  let v19 : BitVec 32 := Scalar.extui v18
  let c0_i32_11 : BitVec 32 := 0#32
  let v20 : BitVec 1 := Scalar.cmpi .ne v19 c0_i32_11
  v20

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2048x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2048x1024_S2048x1024_0_0 : ∀ a, (![0, 0] : Fin 2 → Nat) a + S2048x1024.size a ≤ S2048x1024.size a
  h_S2048x1024 : 0 < S2048x1024.numel
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  shapeCasts_S1024x128_S1024x128 : S1024x128.ShapeCasts S1024x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  dot_S1024x128_S128x128_S1024x128_1_0_0_1_n_n_wf : DotDims.WF S1024x128 S128x128 S1024x128 [1] [0] [0] [1] [] []
  dot_S2048x1024_S1024x128_S2048x128_1_0_0_1_n_n_wf : DotDims.WF S2048x1024 S1024x128 S2048x128 [1] [0] [0] [1] [] []
  dot_S1024x128_S128x64_S1024x64_1_0_0_1_n_n_wf : DotDims.WF S1024x128 S128x64 S1024x64 [1] [0] [0] [1] [] []
  dot_S2048x1024_S1024x64_S2048x64_1_0_0_1_n_n_wf : DotDims.WF S2048x1024 S1024x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S16384x16384.size a
  hwx0_1 : ∀ i : grid0.Coords, EltTy.bits .f32 = 32 ∨ (Rect.block (s := S16384x16384) S2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S16384x128.size a
  hwx0_4 : ∀ i : grid0.Coords, EltTy.bits .f32 = 32 ∨ (Rect.block (s := S16384x128) S2048x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S16384x128.size a
  hwx1_0 : ∀ i : grid1.Coords, EltTy.bits .f32 = 32 ∨ (Rect.block (s := S16384x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S16384x16384.size a
  hwx1_1 : ∀ i : grid1.Coords, EltTy.bits .f32 = 32 ∨ (Rect.block (s := S16384x16384) S2048x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x64.size a ≤ S16384x64.size a
  hwx1_4 : ∀ i : grid1.Coords, EltTy.bits .f32 = 32 ∨ (Rect.block (s := S16384x64) S2048x64.size (cc1_transform_4 i) (hinb1_4 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S2048x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S16384x64 : Shape := ⟨2, ![16384, 64]⟩
abbrev S1x64 : Shape := ⟨2, ![1, 64]⟩

abbrev nBuf : Space → Nat
  | .hbm => 19
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S16384x128, .f32⟩
  | .hbm, ⟨7, _⟩ => ⟨S16384x128, .f32⟩
  | .hbm, ⟨8, _⟩ => ⟨S1x128, .f32⟩
  | .hbm, ⟨9, _⟩ => ⟨S16384x128, .f32⟩
  | .hbm, ⟨10, _⟩ => ⟨S16384x128, .f32⟩
  | .hbm, ⟨11, _⟩ => ⟨S_, .f32⟩
  | .hbm, ⟨12, _⟩ => ⟨S16384x128, .f32⟩
  | .hbm, ⟨13, _⟩ => ⟨S16384x128, .f32⟩
  | .hbm, ⟨14, _⟩ => ⟨S16384x64, .f32⟩
  | .hbm, ⟨15, _⟩ => ⟨S16384x64, .f32⟩
  | .hbm, ⟨16, _⟩ => ⟨S1x64, .f32⟩
  | .hbm, ⟨17, _⟩ => ⟨S16384x64, .f32⟩
  | .hbm, ⟨18, _⟩ => ⟨S16384x64, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  dot_S16384x128_S128x128_S16384x128_1_0_0_1_n_n_wf : DotDims.WF S16384x128 S128x128 S16384x128 [1] [0] [0] [1] [] []
  dot_S16384x16384_S16384x128_S16384x128_1_0_0_1_n_n_wf : DotDims.WF S16384x16384 S16384x128 S16384x128 [1] [0] [0] [1] [] []
  dot_S16384x128_S128x64_S16384x64_1_0_0_1_n_n_wf : DotDims.WF S16384x128 S128x64 S16384x64 [1] [0] [0] [1] [] []
  dot_S16384x16384_S16384x64_S16384x64_1_0_0_1_n_n_wf : DotDims.WF S16384x16384 S16384x64 S16384x64 [1] [0] [0] [1] [] []

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.K.Common.lean ====
import proofs.«133894_j558345748855_1_alg».proof.Proof.Gen.Kernel.Launch
import proofs.«133894_j558345748855_1_alg».proof.Proof.Gen.Kernel.Skeleton
import proofs.«133894_j558345748855_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-! What both regions' proofs share: the two branch conditions of each kernel body as propositions of the grid
    coordinates, decided once over the 8 × 16 grid (the point number modulo 16 is the position along the contraction
    axis), and where the output window is idle and where it is written back. -/

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0 -/

/-- The body's first conditional: this is the first tile of the contraction axis (the accumulator is reset). -/
abbrev cond0_0 (i : grid0.Coords) : Prop := (Scalar.cmpi .ne (Scalar.extui (Scalar.cmpi .eq (BitVec.ofNat 32 (i 1).val) 0#32)) 0#32) = 1#1
/-- The body's second conditional: this is the last tile of the contraction axis (the output block is stored). -/
abbrev cond0_1 (i : grid0.Coords) : Prop := k0_cond2 i = 1#1

theorem hcond0_0 : ∀ t : Fin cfg0.N, cond0_0 (grid0.coords t) ↔ t.val % 16 = 0 :=
  (by decide +kernel : ∀ t : Fin grid0.N, cond0_0 (grid0.coords t) ↔ t.val % 16 = 0)
theorem hcond0_1 : ∀ t : Fin cfg0.N, cond0_1 (grid0.coords t) ↔ t.val % 16 = 15 :=
  (by decide +kernel : ∀ t : Fin grid0.N, cond0_1 (grid0.coords t) ↔ t.val % 16 = 15)

/-- The four input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last tile the output window is idle and is not written back; on it, it is live. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-- The accumulator: a whole scoped buffer of the kernel's own. -/
abbrev scM0 : Memref sig .tc .vmem S2048x128 .f32 := Memref.whole cc0_scratch0

/-! ## Region 1 -/

abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1

theorem hcond1_0 : ∀ t : Fin cfg1.N, cond1_0 (grid1.coords t) ↔ t.val % 16 = 0 :=
  (by decide +kernel : ∀ t : Fin grid1.N, cond1_0 (grid1.coords t) ↔ t.val % 16 = 0)
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

abbrev scM1 : Memref sig .tc .vmem S2048x64 .f32 := Memref.whole cc1_scratch0

/-- The zero offsets of a whole-buffer access, however spelt. -/
theorem hz2 : (![0, 0] : Fin 2 → Nat) = fun _ => 0 := by funext a; fin_cases a <;> rfl
theorem hz1 : (![0] : Fin 1 → Nat) = fun _ => 0 := by funext a; fin_cases a; rfl

end Cert.Kernel.Hand

end
-- ==== Proof.K.Body0.lean ====
import proofs.«133894_j558345748855_1_alg».proof.Proof.K.Common

set_option maxRecDepth 16384

noncomputable section

/-! The body of the first layer's kernel, run once per case of its two conditionals, on whole staging buffers.
    With `x` the tile of the layer's input rows, `w` the weight matrix, `a` the adjacency tile and `s` the accumulator
    as the point finds it, every point leaves the accumulator at `s + a · (x · w)` (the payload `k0_pay2`), from
    `s = 0` (the payload `k0_pay1`) on the first tile of the contraction axis; on the last tile the output block is
    stored from the new accumulator and the bias row (the payload `k0_pay3`, which holds the layer's activation). -/

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A tile that is neither the first nor the last of the contraction axis: the accumulator takes one more product. -/
theorem run0_mid (c : Dev nD) (i : grid0.Coords)
    (arg2 : Memref sig .tc .vmem S1024x128 .f32) (harg2 : arg2.IsWhole) (arg3 : Memref sig .tc .vmem S2048x1024 .f32) (harg3 : arg3.IsWhole)
    (arg4 : Memref sig .tc .vmem S128x128 .f32) (harg4 : arg4.IsWhole) (arg5 : Memref sig .tc .vmem S128 .f32) (harg5 : arg5.IsWhole)
    (arg6 : Memref sig .tc .vmem S2048x128 .f32) (harg6 : arg6.IsWhole) (arg7 : Memref sig .tc .vmem S2048x128 .f32) (harg7 : arg7.IsWhole)
    (hc0 : ¬cond0_0 i) (hc1 : ¬cond0_1 i)
    (x : Vec F S1024x128 .f32) (a : Vec F S2048x1024 .f32) (w : Vec F S128x128 .f32) (s : Vec F S2048x128 .f32)
    (E : Set ℕ) (K : PUnit → sProp 𝕄) :
    iprop(owns (c : Thread nD τ) arg2 fullShare x ∗ owns (c : Thread nD τ) arg3 fullShare a ∗ owns (c : Thread nD τ) arg4 fullShare w
        ∗ owns (c : Thread nD τ) arg7 fullShare s
        ∗ (iprop(owns (c : Thread nD τ) arg2 fullShare x ∗ owns (c : Thread nD τ) arg3 fullShare a ∗ owns (c : Thread nD τ) arg4 fullShare w
            ∗ owns (c : Thread nD τ) arg7 fullShare (k0_pay2 x w a s)) -∗ K ⟨⟩))
      ⊢ wp frame (wpE (defs₀ (F := F)) Variants.none c none) E (cc0__gcn_layer_kernel i arg2 harg2 arg3 harg3 arg4 harg4 arg5 harg5 arg6 harg6 arg7 harg7) K := by
  simp only [cc0__gcn_layer_kernel_eq_skeleton]; unfold cc0__gcn_layer_kernel_skel
  unfold owns
  iintro ⟨⟨%f2, %hf2, H2⟩, ⟨%f3, %hf3, H3⟩, ⟨%f4, %hf4, H4⟩, ⟨%f7, %hf7, H7⟩, Hk⟩
  obtain rfl := harg2.eq_unread hf2; obtain rfl := harg3.eq_unread hf3; obtain rfl := harg4.eq_unread hf4; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H7
  ipureintro
  rw [View.read_writes_eq_canon _ _ _ (fun y => ⟨_, List.mem_singleton_self _, View.mem_set_unit_zero hz2 inb_S2048x128_S2048x128_0_0 y⟩), View.canon_unit_zero hz2]
  simp only [View.readAt_eq_ld, harg2.read_unread, harg3.read_unread, harg4.read_unread, harg7.read_unread, View.ld_unit_zero (S := S1024x128) hz2, View.ld_unit_zero (S := S128x128) hz2, View.ld_unit_zero (S := S2048x1024) hz2, View.ld_unit_zero (S := S2048x128) hz2, View.ld_unit_zero (S := S128) hz1]

set_option maxHeartbeats 1000000 in
/-- The first tile of the contraction axis: the accumulator, whatever it held, is reset and takes the first product. -/
theorem run0_first (c : Dev nD) (i : grid0.Coords)
    (arg2 : Memref sig .tc .vmem S1024x128 .f32) (harg2 : arg2.IsWhole) (arg3 : Memref sig .tc .vmem S2048x1024 .f32) (harg3 : arg3.IsWhole)
    (arg4 : Memref sig .tc .vmem S128x128 .f32) (harg4 : arg4.IsWhole) (arg5 : Memref sig .tc .vmem S128 .f32) (harg5 : arg5.IsWhole)
    (arg6 : Memref sig .tc .vmem S2048x128 .f32) (harg6 : arg6.IsWhole) (arg7 : Memref sig .tc .vmem S2048x128 .f32) (harg7 : arg7.IsWhole)
    (hc0 : cond0_0 i) (hc1 : ¬cond0_1 i)
    (x : Vec F S1024x128 .f32) (a : Vec F S2048x1024 .f32) (w : Vec F S128x128 .f32) (s : Vec F S2048x128 .f32)
    (E : Set ℕ) (K : PUnit → sProp 𝕄) :
    iprop(owns (c : Thread nD τ) arg2 fullShare x ∗ owns (c : Thread nD τ) arg3 fullShare a ∗ owns (c : Thread nD τ) arg4 fullShare w
        ∗ owns (c : Thread nD τ) arg7 fullShare s
        ∗ (iprop(owns (c : Thread nD τ) arg2 fullShare x ∗ owns (c : Thread nD τ) arg3 fullShare a ∗ owns (c : Thread nD τ) arg4 fullShare w
            ∗ owns (c : Thread nD τ) arg7 fullShare (k0_pay2 x w a (k0_pay1 (F := F)))) -∗ K ⟨⟩))
      ⊢ wp frame (wpE (defs₀ (F := F)) Variants.none c none) E (cc0__gcn_layer_kernel i arg2 harg2 arg3 harg3 arg4 harg4 arg5 harg5 arg6 harg6 arg7 harg7) K := by
  simp only [cc0__gcn_layer_kernel_eq_skeleton]; unfold cc0__gcn_layer_kernel_skel
  unfold owns
  iintro ⟨⟨%f2, %hf2, H2⟩, ⟨%f3, %hf3, H3⟩, ⟨%f4, %hf4, H4⟩, ⟨%f7, %hf7, H7⟩, Hk⟩
  obtain rfl := harg2.eq_unread hf2; obtain rfl := harg3.eq_unread hf3; obtain rfl := harg4.eq_unread hf4; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H7
  ipureintro
  sl_unfold_words
  rw [View.read_writes_eq_canon _ _ _ (fun y => ⟨_, List.mem_cons_self, View.mem_set_unit_zero hz2 inb_S2048x128_S2048x128_0_0 y⟩), View.canon_cons_unit_zero (S := S2048x128) hz2]
  simp only [View.readAt_eq_ld, harg2.read_unread, harg3.read_unread, harg4.read_unread, harg7.read_unread, View.readCov_unit_zero (S := S2048x128) _ hz2, View.ld_unit_zero (S := S1024x128) hz2, View.ld_unit_zero (S := S128x128) hz2, View.ld_unit_zero (S := S2048x1024) hz2, View.ld_unit_zero (S := S2048x128) hz2, View.ld_unit_zero (S := S128) hz1]

set_option maxHeartbeats 1000000 in
/-- The last tile of the contraction axis: the accumulator takes the last product, and the output block is stored
    from it and the bias row `b`. -/
theorem run0_last (c : Dev nD) (i : grid0.Coords)
    (arg2 : Memref sig .tc .vmem S1024x128 .f32) (harg2 : arg2.IsWhole) (arg3 : Memref sig .tc .vmem S2048x1024 .f32) (harg3 : arg3.IsWhole)
    (arg4 : Memref sig .tc .vmem S128x128 .f32) (harg4 : arg4.IsWhole) (arg5 : Memref sig .tc .vmem S128 .f32) (harg5 : arg5.IsWhole)
    (arg6 : Memref sig .tc .vmem S2048x128 .f32) (harg6 : arg6.IsWhole) (arg7 : Memref sig .tc .vmem S2048x128 .f32) (harg7 : arg7.IsWhole)
    (hc0 : ¬cond0_0 i) (hc1 : cond0_1 i)
    (x : Vec F S1024x128 .f32) (a : Vec F S2048x1024 .f32) (w : Vec F S128x128 .f32) (b : Vec F S128 .f32) (d : Vec F S2048x128 .f32) (s : Vec F S2048x128 .f32)
    (E : Set ℕ) (K : PUnit → sProp 𝕄) :
    iprop(owns (c : Thread nD τ) arg2 fullShare x ∗ owns (c : Thread nD τ) arg3 fullShare a ∗ owns (c : Thread nD τ) arg4 fullShare w ∗ owns (c : Thread nD τ) arg5 fullShare b ∗ owns (c : Thread nD τ) arg6 fullShare d
        ∗ owns (c : Thread nD τ) arg7 fullShare s
        ∗ (iprop(owns (c : Thread nD τ) arg2 fullShare x ∗ owns (c : Thread nD τ) arg3 fullShare a ∗ owns (c : Thread nD τ) arg4 fullShare w ∗ owns (c : Thread nD τ) arg5 fullShare b
            ∗ owns (c : Thread nD τ) arg6 fullShare (k0_pay3 (k0_pay2 x w a s) b)
            ∗ owns (c : Thread nD τ) arg7 fullShare (k0_pay2 x w a s)) -∗ K ⟨⟩))
      ⊢ wp frame (wpE (defs₀ (F := F)) Variants.none c none) E (cc0__gcn_layer_kernel i arg2 harg2 arg3 harg3 arg4 harg4 arg5 harg5 arg6 harg6 arg7 harg7) K := by
  simp only [cc0__gcn_layer_kernel_eq_skeleton]; unfold cc0__gcn_layer_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_words
    rw [View.read_writes_eq_canon _ _ _ (fun y => ⟨_, List.mem_singleton_self _, View.mem_set_unit_zero hz2 inb_S2048x128_S2048x128_0_0 y⟩), View.canon_unit_zero hz2]
    simp only [View.readAt_eq_ld, harg2.read_unread, harg3.read_unread, harg4.read_unread, harg5.read_unread, harg7.read_unread, View.readCov_unit_zero (S := S2048x128) _ hz2, View.ld_unit_zero (S := S1024x128) hz2, View.ld_unit_zero (S := S128x128) hz2, View.ld_unit_zero (S := S2048x1024) hz2, View.ld_unit_zero (S := S2048x128) hz2, View.ld_unit_zero (S := S128) hz1]
  iexists _; isplitr
  swap; · iexact H7
  ipureintro
  sl_unfold_words
  rw [View.read_writes_eq_canon _ _ _ (fun y => ⟨_, List.mem_singleton_self _, View.mem_set_unit_zero hz2 inb_S2048x128_S2048x128_0_0 y⟩), View.canon_unit_zero hz2]
  simp only [View.readAt_eq_ld, harg2.read_unread, harg3.read_unread, harg4.read_unread, harg7.read_unread, View.ld_unit_zero (S := S1024x128) hz2, View.ld_unit_zero (S := S128x128) hz2, View.ld_unit_zero (S := S2048x1024) hz2, View.ld_unit_zero (S := S2048x128) hz2, View.ld_unit_zero (S := S128) hz1]

end Cert.Kernel.Hand

end
-- ==== Proof.K.Rest.lean ====
import proofs.«133894_j558345748855_1_alg».proof.Proof.K.Common

set_option maxRecDepth 16384

noncomputable section

/-! Each pipeline's class invariant — the core's scoped buffers that the pipeline does not stage, each at some
    contents, and the generator register at some state — with the kernel's accumulator set apart as a whole memref
    owned at some contents, so that a region invariant can name what the accumulator holds. The other nine buffers
    (the other pipeline's staging buffers and accumulator) stay at anything. -/

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Beside pipeline 0's accumulator: the other pipeline's scoped buffers, each at some contents. -/
def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; try rfl

/-- Nine conjuncts then a tenth, beside an eleventh: the tenth moved to the front. -/
theorem sep_rot10 (a1 a2 a3 a4 a5 a6 a7 a8 a9 s g : sProp 𝕄) :
    (iprop((a1 ∗ a2 ∗ a3 ∗ a4 ∗ a5 ∗ a6 ∗ a7 ∗ a8 ∗ a9 ∗ s) ∗ g) : sProp 𝕄) = iprop((s ∗ a1 ∗ a2 ∗ a3 ∗ a4 ∗ a5 ∗ a6 ∗ a7 ∗ a8 ∗ a9) ∗ g) := by
  have h₁ : (iprop((a1 ∗ a2 ∗ a3 ∗ a4 ∗ a5 ∗ a6 ∗ a7 ∗ a8 ∗ a9 ∗ s) ∗ g) : sProp 𝕄) ⊢ iprop((s ∗ a1 ∗ a2 ∗ a3 ∗ a4 ∗ a5 ∗ a6 ∗ a7 ∗ a8 ∗ a9) ∗ g) := by
    iintro ⟨⟨H1, H2, H3, H4, H5, H6, H7, H8, H9, HS⟩, Hg⟩
    isplitr [Hg]
    · isplitl [HS]; · iexact HS
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    iexact Hg
  have h₂ : (iprop((s ∗ a1 ∗ a2 ∗ a3 ∗ a4 ∗ a5 ∗ a6 ∗ a7 ∗ a8 ∗ a9) ∗ g) : sProp 𝕄) ⊢ iprop((a1 ∗ a2 ∗ a3 ∗ a4 ∗ a5 ∗ a6 ∗ a7 ∗ a8 ∗ a9 ∗ s) ∗ g) := by
    iintro ⟨⟨HS, H1, H2, H3, H4, H5, H6, H7, H8, H9⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact HS
    iexact Hg
  exact BI.equiv_iff.mp ⟨h₁, h₂⟩

/-- Beside pipeline 1's accumulator: the other pipeline's scoped buffers, each at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_scratch0), ((c : Thread nD τ).loc cc0_scratch0) ↦{fullShare} f))

/-- The same for pipeline 1, whose accumulator is the LAST of its scoped rest: the conjuncts are reordered. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA others1; rw [scopedRest1_eq]; simp only [scM1, owns_whole]
  exact sep_rot10 _ _ _ _ _ _ _ _ _ _ _

end Cert.Kernel.Hand

end
-- ==== Proof.K.Dat0.lean ====
import proofs.«133894_j558345748855_1_alg».proof.Proof.K.Body0
import proofs.«133894_j558345748855_1_alg».proof.Proof.K.Rest

set_option maxRecDepth 16384

noncomputable section

/-! The first layer's pipeline, at the buffer contents `V` the region is entered from: each window's block at a
    grid point; the accumulator after each point, by recursion along the points (reset on the first tile of every
    row block, one more product on each later tile); the region invariant, which carries the accumulator at exactly
    that value between points; the proof data; and the body obligation, the body's three cases chosen by the point's
    position along the contraction axis. -/

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The same at their literal types: the tile of input rows, the adjacency tile, the weights, the bias row. -/
abbrev xblk0 (c : Dev nD) (t : Fin cfg0.N) : Vec F S1024x128 .f32 := iblk0 V c 0 t
abbrev ablk0 (c : Dev nD) (t : Fin cfg0.N) : Vec F S2048x1024 .f32 := iblk0 V c 1 t
abbrev wblk0 (c : Dev nD) (t : Fin cfg0.N) : Vec F S128x128 .f32 := iblk0 V c 2 t
abbrev bblk0 (c : Dev nD) (t : Fin cfg0.N) : Vec F S128 .f32 := iblk0 V c 3 t

/-- An input window's current staging buffer holds its block at every point, fetched there or not (where it is not
    fetched the block index has not moved), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator after each point -/

/-- What the accumulator holds after the body at point `n`: on the first tile of a row block the first product over
    zero, on every later tile one more product over what the point before left. -/
def accAt0 (c : Dev nD) : (n : ℕ) → n < cfg0.N → Vec F S2048x128 .f32
  | 0, hn => k0_pay2 (xblk0 V c ⟨0, hn⟩) (wblk0 V c ⟨0, hn⟩) (ablk0 V c ⟨0, hn⟩) (k0_pay1 (F := F))
  | n + 1, hn =>
    if (n + 1) % 16 = 0 then k0_pay2 (xblk0 V c ⟨n + 1, hn⟩) (wblk0 V c ⟨n + 1, hn⟩) (ablk0 V c ⟨n + 1, hn⟩) (k0_pay1 (F := F))
    else k0_pay2 (xblk0 V c ⟨n + 1, hn⟩) (wblk0 V c ⟨n + 1, hn⟩) (ablk0 V c ⟨n + 1, hn⟩) (accAt0 c n (Nat.lt_of_succ_lt hn))

theorem accAt0_first (c : Dev nD) (t : Fin cfg0.N) (h : t.val % 16 = 0) :
    accAt0 V c t.val t.isLt = k0_pay2 (xblk0 V c t) (wblk0 V c t) (ablk0 V c t) (k0_pay1 (F := F)) := by
  obtain ⟨n, hn⟩ := t
  cases n with
  | zero => rfl
  | succ n => exact if_pos h

theorem accAt0_next (c : Dev nD) (t : Fin cfg0.N) (h : ¬t.val % 16 = 0) :
    accAt0 V c t.val t.isLt = k0_pay2 (xblk0 V c t) (wblk0 V c t) (ablk0 V c t)
      (accAt0 V c (t.val - 1) (Nat.lt_of_le_of_lt (Nat.sub_le _ _) t.isLt)) := by
  obtain ⟨n, hn⟩ := t
  cases n with
  | zero => exact absurd (Nat.zero_mod _) h
  | succ n => exact if_neg h

/-! ## The region invariant -/

/-- The region invariant before position `n`: before the first point the class's (the accumulator at anything);
    afterwards the accumulator at what the point before left in it, the other scoped buffers and the generator
    register at anything. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (accAt0 V c n hn) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (accAt0 V c (n - 1) (by omega)) ∗ others0 c) ∗ (∃ r, prngReg c r)) := by
  cases n with
  | zero => exact absurd rfl hz
  | succ n => rfl

/-- At any position the invariant holds the accumulator at SOME contents. -/
theorem PhiS0_some (c : Dev nD) (n : ℕ) (h : n ≤ cfg0.N) :
    PhiS0 V c n h ⊢ iprop(iprop((∃ d, owns (c : Thread nD τ) scM0 fullShare d) ∗ others0 c) ∗ (∃ r, prngReg c r)) := by
  cases n with
  | zero => rw [PhiS0_zero V c 0 h rfl, PhiA0_eq]
  | succ n =>
    rw [PhiS0_succ]
    iintro ⟨⟨HS, Ho⟩, Hg⟩
    isplitl [HS Ho]
    · isplitl [HS]; · iexists _; iexact HS
      iexact Ho
    iexact Hg

/-! ## The proof data -/

/-- The proof data of the first layer's pipeline on core `c`: the arrays as the region finds them; after the body each
    input's buffer at its block, the output's at the payload of the accumulator and the bias row (consulted on the last tile only);
    the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay3 (accAt0 V c t.val t.isLt) (bblk0 V c t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay3 (accAt0 V c t.val t.isLt) (bblk0 V c t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem live0_0 (c : Dev nD) (t : Fin cfg0.N) : (dat0 V c).leavesExact 0 t = owns (c : Thread nD τ) (st0_0 t) fullShare (iblk0 V c 0 t) := by
  unfold Dat.leavesExact; rw [liveAt0_0 t, after0_0]
theorem live0_1 (c : Dev nD) (t : Fin cfg0.N) : (dat0 V c).leavesExact 1 t = owns (c : Thread nD τ) (st0_1 t) fullShare (iblk0 V c 1 t) := by
  unfold Dat.leavesExact; rw [liveAt0_1 t, after0_1]
theorem live0_2 (c : Dev nD) (t : Fin cfg0.N) : (dat0 V c).leavesExact 2 t = owns (c : Thread nD τ) (st0_2 t) fullShare (iblk0 V c 2 t) := by
  unfold Dat.leavesExact; rw [liveAt0_2 t, after0_2]
theorem live0_3 (c : Dev nD) (t : Fin cfg0.N) : (dat0 V c).leavesExact 3 t = owns (c : Thread nD τ) (st0_3 t) fullShare (iblk0 V c 3 t) := by
  unfold Dat.leavesExact; rw [liveAt0_3 t, after0_3]

set_option maxHeartbeats 4800000 in
/-- The body at any point. The inputs' staging buffers hold their blocks; the point's position along the contraction
    axis says which case of the body runs; the invariant hands the body the accumulator (at what the point before
    left, or at anything before the first point) and takes it back at this point's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [live0_0, live0_1, live0_2, live0_3, PhiS0_castSucc V c t]
  have hN : t.val < 128 := lt_of_lt_of_eq t.isLt (show cfg0.N = 128 from N_0)
  by_cases h1 : t.val % 16 = 15
  · have h0 : ¬t.val % 16 = 0 := by omega
    have hz : t.val ≠ 0 := by intro h; rw [h] at h1; omega
    rw [show (dat0 V c).leavesExact 4 t = owns (c : Thread nD τ) (st0_4 t) fullShare ((dat0 V c).after 4 t) from by
      unfold Dat.leavesExact; rw [liveAt0_4 t ((hcond0_1 t).mpr h1)], after0_4]
    rw [accAt0_next V c t h0, PhiS0_pos V c _ _ hz]
    iintro ⟨⟨⟨HS, Hoth⟩, Hg⟩, Ho, ⟨%d0, H0⟩, ⟨%d1, H1⟩, ⟨%d2, H2⟩, ⟨%d3, H3⟩, ⟨%d4, H4⟩⟩
    iapply (run0_last c (grid0.coords t) _ _ _ _ _ _ _ _ _ _ _ _ (fun h => h0 ((hcond0_0 t).mp h)) ((hcond0_1 t).mpr h1)
      (xblk0 V c t) (ablk0 V c t) (wblk0 V c t) (bblk0 V c t) ((dat0 V c).before 4 t d4)
      (accAt0 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4
  · rw [Dat.leavesExact_idle (dat0 V c) 4 t (idleAt0_4 t (fun h => h1 ((hcond0_1 t).mp h))) (noFlush0_4 t (fun h => h1 ((hcond0_1 t).mp h)))]
    by_cases h0 : t.val % 16 = 0
    · rw [accAt0_first V c t h0]
      iintro ⟨HΦ, Ho, ⟨%d0, H0⟩, ⟨%d1, H1⟩, ⟨%d2, H2⟩, ⟨%d3, H3⟩, ⟨%d4, H4⟩⟩
      ihave HΦ' := (PhiS0_some V c t.val (Nat.le_of_lt t.isLt)) $$ HΦ
      icases HΦ' with ⟨⟨⟨%s, HS⟩, Hoth⟩, Hg⟩
      iapply (run0_first c (grid0.coords t) _ _ _ _ _ _ _ _ _ _ _ _ ((hcond0_0 t).mpr h0) (fun h => h1 ((hcond0_1 t).mp h))
        (xblk0 V c t) (ablk0 V c t) (wblk0 V c t) s Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexists _; iexact H4
    · have hz : t.val ≠ 0 := by intro h; rw [h] at h0; omega
      rw [accAt0_next V c t h0, PhiS0_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply (run0_mid c (grid0.coords t) _ _ _ _ _ _ _ _ _ _ _ _ (fun h => h0 ((hcond0_0 t).mp h)) (fun h => h1 ((hcond0_1 t).mp h))
        (xblk0 V c t) (ablk0 V c t) (wblk0 V c t)
        (accAt0 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After the last point the invariant gives the class's back: the accumulator's value is forgotten. -/
theorem Phi0_last (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl, PhiA0_eq]
  exact PhiS0_some V c _ _

end

end Cert.Kernel.Hand

end
-- ==== Proof.K.Body1.lean ====
import proofs.«133894_j558345748855_1_alg».proof.Proof.K.Common

set_option maxRecDepth 16384

noncomputable section

/-! The body of the second layer's kernel, run once per case of its two conditionals, on whole staging buffers.
    With `x` the tile of the layer's input rows, `w` the weight matrix, `a` the adjacency tile and `s` the accumulator
    as the point finds it, every point leaves the accumulator at `s + a · (x · w)` (the payload `k1_pay2`), from
    `s = 0` (the payload `k1_pay1`) on the first tile of the contraction axis; on the last tile the output block is
    stored from the new accumulator and the bias row (the payload `k1_pay3`, which holds the layer's activation). -/

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A tile that is neither the first nor the last of the contraction axis: the accumulator takes one more product. -/
theorem run1_mid (c : Dev nD) (i : grid1.Coords)
    (arg2 : Memref sig .tc .vmem S1024x128 .f32) (harg2 : arg2.IsWhole) (arg3 : Memref sig .tc .vmem S2048x1024 .f32) (harg3 : arg3.IsWhole)
    (arg4 : Memref sig .tc .vmem S128x64 .f32) (harg4 : arg4.IsWhole) (arg5 : Memref sig .tc .vmem S64 .f32) (harg5 : arg5.IsWhole)
    (arg6 : Memref sig .tc .vmem S2048x64 .f32) (harg6 : arg6.IsWhole) (arg7 : Memref sig .tc .vmem S2048x64 .f32) (harg7 : arg7.IsWhole)
    (hc0 : ¬cond1_0 i) (hc1 : ¬cond1_1 i)
    (x : Vec F S1024x128 .f32) (a : Vec F S2048x1024 .f32) (w : Vec F S128x64 .f32) (s : Vec F S2048x64 .f32)
    (E : Set ℕ) (K : PUnit → sProp 𝕄) :
    iprop(owns (c : Thread nD τ) arg2 fullShare x ∗ owns (c : Thread nD τ) arg3 fullShare a ∗ owns (c : Thread nD τ) arg4 fullShare w
        ∗ owns (c : Thread nD τ) arg7 fullShare s
        ∗ (iprop(owns (c : Thread nD τ) arg2 fullShare x ∗ owns (c : Thread nD τ) arg3 fullShare a ∗ owns (c : Thread nD τ) arg4 fullShare w
            ∗ owns (c : Thread nD τ) arg7 fullShare (k1_pay2 x w a s)) -∗ K ⟨⟩))
      ⊢ wp frame (wpE (defs₀ (F := F)) Variants.none c none) E (cc1__gcn_layer_kernel i arg2 harg2 arg3 harg3 arg4 harg4 arg5 harg5 arg6 harg6 arg7 harg7) K := by
  simp only [cc1__gcn_layer_kernel_eq_skeleton]; unfold cc1__gcn_layer_kernel_skel
  unfold owns
  iintro ⟨⟨%f2, %hf2, H2⟩, ⟨%f3, %hf3, H3⟩, ⟨%f4, %hf4, H4⟩, ⟨%f7, %hf7, H7⟩, Hk⟩
  obtain rfl := harg2.eq_unread hf2; obtain rfl := harg3.eq_unread hf3; obtain rfl := harg4.eq_unread hf4; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H7
  ipureintro
  rw [View.read_writes_eq_canon _ _ _ (fun y => ⟨_, List.mem_singleton_self _, View.mem_set_unit_zero hz2 inb_S2048x64_S2048x64_0_0 y⟩), View.canon_unit_zero hz2]
  simp only [View.readAt_eq_ld, harg2.read_unread, harg3.read_unread, harg4.read_unread, harg7.read_unread, View.ld_unit_zero (S := S1024x128) hz2, View.ld_unit_zero (S := S128x64) hz2, View.ld_unit_zero (S := S2048x1024) hz2, View.ld_unit_zero (S := S2048x64) hz2, View.ld_unit_zero (S := S64) hz1]

set_option maxHeartbeats 1000000 in
/-- The first tile of the contraction axis: the accumulator, whatever it held, is reset and takes the first product. -/
theorem run1_first (c : Dev nD) (i : grid1.Coords)
    (arg2 : Memref sig .tc .vmem S1024x128 .f32) (harg2 : arg2.IsWhole) (arg3 : Memref sig .tc .vmem S2048x1024 .f32) (harg3 : arg3.IsWhole)
    (arg4 : Memref sig .tc .vmem S128x64 .f32) (harg4 : arg4.IsWhole) (arg5 : Memref sig .tc .vmem S64 .f32) (harg5 : arg5.IsWhole)
    (arg6 : Memref sig .tc .vmem S2048x64 .f32) (harg6 : arg6.IsWhole) (arg7 : Memref sig .tc .vmem S2048x64 .f32) (harg7 : arg7.IsWhole)
    (hc0 : cond1_0 i) (hc1 : ¬cond1_1 i)
    (x : Vec F S1024x128 .f32) (a : Vec F S2048x1024 .f32) (w : Vec F S128x64 .f32) (s : Vec F S2048x64 .f32)
    (E : Set ℕ) (K : PUnit → sProp 𝕄) :
    iprop(owns (c : Thread nD τ) arg2 fullShare x ∗ owns (c : Thread nD τ) arg3 fullShare a ∗ owns (c : Thread nD τ) arg4 fullShare w
        ∗ owns (c : Thread nD τ) arg7 fullShare s
        ∗ (iprop(owns (c : Thread nD τ) arg2 fullShare x ∗ owns (c : Thread nD τ) arg3 fullShare a ∗ owns (c : Thread nD τ) arg4 fullShare w
            ∗ owns (c : Thread nD τ) arg7 fullShare (k1_pay2 x w a (k1_pay1 (F := F)))) -∗ K ⟨⟩))
      ⊢ wp frame (wpE (defs₀ (F := F)) Variants.none c none) E (cc1__gcn_layer_kernel i arg2 harg2 arg3 harg3 arg4 harg4 arg5 harg5 arg6 harg6 arg7 harg7) K := by
  simp only [cc1__gcn_layer_kernel_eq_skeleton]; unfold cc1__gcn_layer_kernel_skel
  unfold owns
  iintro ⟨⟨%f2, %hf2, H2⟩, ⟨%f3, %hf3, H3⟩, ⟨%f4, %hf4, H4⟩, ⟨%f7, %hf7, H7⟩, Hk⟩
  obtain rfl := harg2.eq_unread hf2; obtain rfl := harg3.eq_unread hf3; obtain rfl := harg4.eq_unread hf4; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H7
  ipureintro
  sl_unfold_words
  rw [View.read_writes_eq_canon _ _ _ (fun y => ⟨_, List.mem_cons_self, View.mem_set_unit_zero hz2 inb_S2048x64_S2048x64_0_0 y⟩), View.canon_cons_unit_zero (S := S2048x64) hz2]
  simp only [View.readAt_eq_ld, harg2.read_unread, harg3.read_unread, harg4.read_unread, harg7.read_unread, View.readCov_unit_zero (S := S2048x64) _ hz2, View.ld_unit_zero (S := S1024x128) hz2, View.ld_unit_zero (S := S128x64) hz2, View.ld_unit_zero (S := S2048x1024) hz2, View.ld_unit_zero (S := S2048x64) hz2, View.ld_unit_zero (S := S64) hz1]

set_option maxHeartbeats 1000000 in
/-- The last tile of the contraction axis: the accumulator takes the last product, and the output block is stored
    from it and the bias row `b`. -/
theorem run1_last (c : Dev nD) (i : grid1.Coords)
    (arg2 : Memref sig .tc .vmem S1024x128 .f32) (harg2 : arg2.IsWhole) (arg3 : Memref sig .tc .vmem S2048x1024 .f32) (harg3 : arg3.IsWhole)
    (arg4 : Memref sig .tc .vmem S128x64 .f32) (harg4 : arg4.IsWhole) (arg5 : Memref sig .tc .vmem S64 .f32) (harg5 : arg5.IsWhole)
    (arg6 : Memref sig .tc .vmem S2048x64 .f32) (harg6 : arg6.IsWhole) (arg7 : Memref sig .tc .vmem S2048x64 .f32) (harg7 : arg7.IsWhole)
    (hc0 : ¬cond1_0 i) (hc1 : cond1_1 i)
    (x : Vec F S1024x128 .f32) (a : Vec F S2048x1024 .f32) (w : Vec F S128x64 .f32) (b : Vec F S64 .f32) (d : Vec F S2048x64 .f32) (s : Vec F S2048x64 .f32)
    (E : Set ℕ) (K : PUnit → sProp 𝕄) :
    iprop(owns (c : Thread nD τ) arg2 fullShare x ∗ owns (c : Thread nD τ) arg3 fullShare a ∗ owns (c : Thread nD τ) arg4 fullShare w ∗ owns (c : Thread nD τ) arg5 fullShare b ∗ owns (c : Thread nD τ) arg6 fullShare d
        ∗ owns (c : Thread nD τ) arg7 fullShare s
        ∗ (iprop(owns (c : Thread nD τ) arg2 fullShare x ∗ owns (c : Thread nD τ) arg3 fullShare a ∗ owns (c : Thread nD τ) arg4 fullShare w ∗ owns (c : Thread nD τ) arg5 fullShare b
            ∗ owns (c : Thread nD τ) arg6 fullShare (k1_pay3 (k1_pay2 x w a s) b)
            ∗ owns (c : Thread nD τ) arg7 fullShare (k1_pay2 x w a s)) -∗ K ⟨⟩))
      ⊢ wp frame (wpE (defs₀ (F := F)) Variants.none c none) E (cc1__gcn_layer_kernel i arg2 harg2 arg3 harg3 arg4 harg4 arg5 harg5 arg6 harg6 arg7 harg7) K := by
  simp only [cc1__gcn_layer_kernel_eq_skeleton]; unfold cc1__gcn_layer_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_words
    rw [View.read_writes_eq_canon _ _ _ (fun y => ⟨_, List.mem_singleton_self _, View.mem_set_unit_zero hz2 inb_S2048x64_S2048x64_0_0 y⟩), View.canon_unit_zero hz2]
    simp only [View.readAt_eq_ld, harg2.read_unread, harg3.read_unread, harg4.read_unread, harg5.read_unread, harg7.read_unread, View.readCov_unit_zero (S := S2048x64) _ hz2, View.ld_unit_zero (S := S1024x128) hz2, View.ld_unit_zero (S := S128x64) hz2, View.ld_unit_zero (S := S2048x1024) hz2, View.ld_unit_zero (S := S2048x64) hz2, View.ld_unit_zero (S := S64) hz1]
  iexists _; isplitr
  swap; · iexact H7
  ipureintro
  sl_unfold_words
  rw [View.read_writes_eq_canon _ _ _ (fun y => ⟨_, List.mem_singleton_self _, View.mem_set_unit_zero hz2 inb_S2048x64_S2048x64_0_0 y⟩), View.canon_unit_zero hz2]
  simp only [View.readAt_eq_ld, harg2.read_unread, harg3.read_unread, harg4.read_unread, harg7.read_unread, View.ld_unit_zero (S := S1024x128) hz2, View.ld_unit_zero (S := S128x64) hz2, View.ld_unit_zero (S := S2048x1024) hz2, View.ld_unit_zero (S := S2048x64) hz2, View.ld_unit_zero (S := S64) hz1]

end Cert.Kernel.Hand

end
-- ==== Proof.K.Dat1.lean ====
import proofs.«133894_j558345748855_1_alg».proof.Proof.K.Body1
import proofs.«133894_j558345748855_1_alg».proof.Proof.K.Rest

set_option maxRecDepth 16384

noncomputable section

/-! The first layer's pipeline, at the buffer contents `V` the region is entered from: each window's block at a
    grid point; the accumulator after each point, by recursion along the points (reset on the first tile of every
    row block, one more product on each later tile); the region invariant, which carries the accumulator at exactly
    that value between points; the proof data; and the body obligation, the body's three cases chosen by the point's
    position along the contraction axis. -/

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The same at their literal types: the tile of input rows, the adjacency tile, the weights, the bias row. -/
abbrev xblk1 (c : Dev nD) (t : Fin cfg1.N) : Vec F S1024x128 .f32 := iblk1 V c 0 t
abbrev ablk1 (c : Dev nD) (t : Fin cfg1.N) : Vec F S2048x1024 .f32 := iblk1 V c 1 t
abbrev wblk1 (c : Dev nD) (t : Fin cfg1.N) : Vec F S128x64 .f32 := iblk1 V c 2 t
abbrev bblk1 (c : Dev nD) (t : Fin cfg1.N) : Vec F S64 .f32 := iblk1 V c 3 t

/-- An input window's current staging buffer holds its block at every point, fetched there or not (where it is not
    fetched the block index has not moved), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator after each point -/

/-- What the accumulator holds after the body at point `n`: on the first tile of a row block the first product over
    zero, on every later tile one more product over what the point before left. -/
def accAt1 (c : Dev nD) : (n : ℕ) → n < cfg1.N → Vec F S2048x64 .f32
  | 0, hn => k1_pay2 (xblk1 V c ⟨0, hn⟩) (wblk1 V c ⟨0, hn⟩) (ablk1 V c ⟨0, hn⟩) (k1_pay1 (F := F))
  | n + 1, hn =>
    if (n + 1) % 16 = 0 then k1_pay2 (xblk1 V c ⟨n + 1, hn⟩) (wblk1 V c ⟨n + 1, hn⟩) (ablk1 V c ⟨n + 1, hn⟩) (k1_pay1 (F := F))
    else k1_pay2 (xblk1 V c ⟨n + 1, hn⟩) (wblk1 V c ⟨n + 1, hn⟩) (ablk1 V c ⟨n + 1, hn⟩) (accAt1 c n (Nat.lt_of_succ_lt hn))

theorem accAt1_first (c : Dev nD) (t : Fin cfg1.N) (h : t.val % 16 = 0) :
    accAt1 V c t.val t.isLt = k1_pay2 (xblk1 V c t) (wblk1 V c t) (ablk1 V c t) (k1_pay1 (F := F)) := by
  obtain ⟨n, hn⟩ := t
  cases n with
  | zero => rfl
  | succ n => exact if_pos h

theorem accAt1_next (c : Dev nD) (t : Fin cfg1.N) (h : ¬t.val % 16 = 0) :
    accAt1 V c t.val t.isLt = k1_pay2 (xblk1 V c t) (wblk1 V c t) (ablk1 V c t)
      (accAt1 V c (t.val - 1) (Nat.lt_of_le_of_lt (Nat.sub_le _ _) t.isLt)) := by
  obtain ⟨n, hn⟩ := t
  cases n with
  | zero => exact absurd (Nat.zero_mod _) h
  | succ n => exact if_neg h

/-! ## The region invariant -/

/-- The region invariant before position `n`: before the first point the class's (the accumulator at anything);
    afterwards the accumulator at what the point before left in it, the other scoped buffers and the generator
    register at anything. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (accAt1 V c n hn) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare (accAt1 V c (n - 1) (by omega)) ∗ others1 c) ∗ (∃ r, prngReg c r)) := by
  cases n with
  | zero => exact absurd rfl hz
  | succ n => rfl

/-- At any position the invariant holds the accumulator at SOME contents. -/
theorem PhiS1_some (c : Dev nD) (n : ℕ) (h : n ≤ cfg1.N) :
    PhiS1 V c n h ⊢ iprop(iprop((∃ d, owns (c : Thread nD τ) scM1 fullShare d) ∗ others1 c) ∗ (∃ r, prngReg c r)) := by
  cases n with
  | zero => rw [PhiS1_zero V c 0 h rfl, PhiA1_eq]
  | succ n =>
    rw [PhiS1_succ]
    iintro ⟨⟨HS, Ho⟩, Hg⟩
    isplitl [HS Ho]
    · isplitl [HS]; · iexists _; iexact HS
      iexact Ho
    iexact Hg

/-! ## The proof data -/

/-- The proof data of the second layer's pipeline on core `c`: the arrays as the region finds them; after the body each
    input's buffer at its block, the output's at the payload of the accumulator and the bias row (consulted on the last tile only);
    the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (accAt1 V c t.val t.isLt) (bblk1 V c t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay3 (accAt1 V c t.val t.isLt) (bblk1 V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem live1_0 (c : Dev nD) (t : Fin cfg1.N) : (dat1 V c).leavesExact 0 t = owns (c : Thread nD τ) (st1_0 t) fullShare (iblk1 V c 0 t) := by
  unfold Dat.leavesExact; rw [liveAt1_0 t, after1_0]
theorem live1_1 (c : Dev nD) (t : Fin cfg1.N) : (dat1 V c).leavesExact 1 t = owns (c : Thread nD τ) (st1_1 t) fullShare (iblk1 V c 1 t) := by
  unfold Dat.leavesExact; rw [liveAt1_1 t, after1_1]
theorem live1_2 (c : Dev nD) (t : Fin cfg1.N) : (dat1 V c).leavesExact 2 t = owns (c : Thread nD τ) (st1_2 t) fullShare (iblk1 V c 2 t) := by
  unfold Dat.leavesExact; rw [liveAt1_2 t, after1_2]
theorem live1_3 (c : Dev nD) (t : Fin cfg1.N) : (dat1 V c).leavesExact 3 t = owns (c : Thread nD τ) (st1_3 t) fullShare (iblk1 V c 3 t) := by
  unfold Dat.leavesExact; rw [liveAt1_3 t, after1_3]

set_option maxHeartbeats 4800000 in
/-- The body at any point. The inputs' staging buffers hold their blocks; the point's position along the contraction
    axis says which case of the body runs; the invariant hands the body the accumulator (at what the point before
    left, or at anything before the first point) and takes it back at this point's value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [live1_0, live1_1, live1_2, live1_3, PhiS1_castSucc V c t]
  have hN : t.val < 128 := lt_of_lt_of_eq t.isLt (show cfg1.N = 128 from N_1)
  by_cases h1 : t.val % 16 = 15
  · have h0 : ¬t.val % 16 = 0 := by omega
    have hz : t.val ≠ 0 := by intro h; rw [h] at h1; omega
    rw [show (dat1 V c).leavesExact 4 t = owns (c : Thread nD τ) (st1_4 t) fullShare ((dat1 V c).after 4 t) from by
      unfold Dat.leavesExact; rw [liveAt1_4 t ((hcond1_1 t).mpr h1)], after1_4]
    rw [accAt1_next V c t h0, PhiS1_pos V c _ _ hz]
    iintro ⟨⟨⟨HS, Hoth⟩, Hg⟩, Ho, ⟨%d0, H0⟩, ⟨%d1, H1⟩, ⟨%d2, H2⟩, ⟨%d3, H3⟩, ⟨%d4, H4⟩⟩
    iapply (run1_last c (grid1.coords t) _ _ _ _ _ _ _ _ _ _ _ _ (fun h => h0 ((hcond1_0 t).mp h)) ((hcond1_1 t).mpr h1)
      (xblk1 V c t) (ablk1 V c t) (wblk1 V c t) (bblk1 V c t) ((dat1 V c).before 4 t d4)
      (accAt1 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4
  · rw [Dat.leavesExact_idle (dat1 V c) 4 t (idleAt1_4 t (fun h => h1 ((hcond1_1 t).mp h))) (noFlush1_4 t (fun h => h1 ((hcond1_1 t).mp h)))]
    by_cases h0 : t.val % 16 = 0
    · rw [accAt1_first V c t h0]
      iintro ⟨HΦ, Ho, ⟨%d0, H0⟩, ⟨%d1, H1⟩, ⟨%d2, H2⟩, ⟨%d3, H3⟩, ⟨%d4, H4⟩⟩
      ihave HΦ' := (PhiS1_some V c t.val (Nat.le_of_lt t.isLt)) $$ HΦ
      icases HΦ' with ⟨⟨⟨%s, HS⟩, Hoth⟩, Hg⟩
      iapply (run1_first c (grid1.coords t) _ _ _ _ _ _ _ _ _ _ _ _ ((hcond1_0 t).mpr h0) (fun h => h1 ((hcond1_1 t).mp h))
        (xblk1 V c t) (ablk1 V c t) (wblk1 V c t) s Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexists _; iexact H4
    · have hz : t.val ≠ 0 := by intro h; rw [h] at h0; omega
      rw [accAt1_next V c t h0, PhiS1_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply (run1_mid c (grid1.coords t) _ _ _ _ _ _ _ _ _ _ _ _ (fun h => h0 ((hcond1_0 t).mp h)) (fun h => h1 ((hcond1_1 t).mp h))
        (xblk1 V c t) (ablk1 V c t) (wblk1 V c t)
        (accAt1 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After the last point the invariant gives the class's back: the accumulator's value is forgotten. -/
theorem Phi1_last (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl, PhiA1_eq]
  exact PhiS1_some V c _ _

end

end Cert.Kernel.Hand

end
-- ==== Proof.K.Run.lean ====
import proofs.«133894_j558345748855_1_alg».proof.Proof.K.Dat0
import proofs.«133894_j558345748855_1_alg».proof.Proof.K.Dat1

set_option maxRecDepth 16384

noncomputable section

/-! The run of the whole program: two kernel regions, one after the other, no host operation between them.
    The buffer contents at the two boundaries are a fold from the launch memory: after a region each of its arrays holds
    what the pipeline's write-backs leave (the inputs as entered, the output the blocks its last tiles stored), every
    other buffer what it held. The second region is entered from the first one's exit contents, so its input rows are
    the first layer's result. Each region is a record of its obligations over the thread state "every unscoped buffer
    at the boundary's contents, the generator register at some state, nothing owed"; the launch composes them, and the
    last thread state read against the final memory names the result array and gives every argument back as launched. -/

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b
/-- After the first region: its arrays at what the pipeline leaves, every other buffer as launched. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second region, entered from the first one's exit contents. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ### The arguments end as launched: a region reads one through an input window or leaves it alone -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl

theorem W2_main_arg1 (c : Dev nD) : W2 m c (Proc.devRef .tc main_arg1) = m ((c : Thread nD τ).loc main_arg1) :=
  calc W2 m c (Proc.devRef .tc main_arg1)
    _ = W1 m c (Proc.devRef .tc main_arg1) := (W2_arr m c 1).trans (((dat1 (V1 m) c).arrAt_in 1 rfl _).trans (A_eq1 (V1 m) c 1))
    _ = W0 m c (Proc.devRef .tc main_arg1) := (W1_arr m c 1).trans (((dat0 (V0 m) c).arrAt_in 1 rfl _).trans (A_eq0 (V0 m) c 1))
    _ = m ((c : Thread nD τ).loc main_arg1) := rfl

theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 2).trans (((dat0 (V0 m) c).arrAt_in 2 rfl _).trans (A_eq0 (V0 m) c 2))
    _ = m ((c : Thread nD τ).loc main_arg2) := rfl

theorem W2_main_arg3 (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := (W1_arr m c 3).trans (((dat0 (V0 m) c).arrAt_in 3 rfl _).trans (A_eq0 (V0 m) c 3))
    _ = m ((c : Thread nD τ).loc main_arg3) := rfl

theorem W2_main_arg4 (c : Dev nD) : W2 m c (Proc.devRef .tc main_arg4) = m ((c : Thread nD τ).loc main_arg4) :=
  calc W2 m c (Proc.devRef .tc main_arg4)
    _ = W1 m c (Proc.devRef .tc main_arg4) := (W2_arr m c 2).trans (((dat1 (V1 m) c).arrAt_in 2 rfl _).trans (A_eq1 (V1 m) c 2))
    _ = W0 m c (Proc.devRef .tc main_arg4) := W1_of_ne m c main_arg4 (by decide)
    _ = m ((c : Thread nD τ).loc main_arg4) := rfl

theorem W2_main_arg5 (c : Dev nD) : W2 m c (Proc.devRef .tc main_arg5) = m ((c : Thread nD τ).loc main_arg5) :=
  calc W2 m c (Proc.devRef .tc main_arg5)
    _ = W1 m c (Proc.devRef .tc main_arg5) := (W2_arr m c 3).trans (((dat1 (V1 m) c).arrAt_in 3 rfl _).trans (A_eq1 (V1 m) c 3))
    _ = W0 m c (Proc.devRef .tc main_arg5) := W1_of_ne m c main_arg5 (by decide)
    _ = m ((c : Thread nD τ).loc main_arg5) := rfl

/-- The second region's input rows are the first region's result array. -/
theorem V1_main_v0 (c : Dev nD) : V1 m c main_v0 = (dat0 (V0 m) c).arrAt 4 cfg0.N := W1_arr m c 4
/-- Its other three arrays are arguments, as launched. -/
theorem V1_main_arg1 (c : Dev nD) : V1 m c main_arg1 = m ((c : Thread nD τ).loc main_arg1) :=
  (W1_arr m c 1).trans (((dat0 (V0 m) c).arrAt_in 1 rfl _).trans (A_eq0 (V0 m) c 1))
theorem V1_main_arg4 (c : Dev nD) : V1 m c main_arg4 = m ((c : Thread nD τ).loc main_arg4) := W1_of_ne m c main_arg4 (by decide)
theorem V1_main_arg5 (c : Dev nD) : V1 m c main_arg5 = m ((c : Thread nD τ).loc main_arg5) := W1_of_ne m c main_arg5 (by decide)

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers through both regions: the generator register at some state, nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- Region 0 over the thread state: entered from every unscoped buffer at `W0`, left at `W1`. Its arrays are
    split out of the unscoped buffers and put back at what the pipeline leaves; the generator register and the scoped
    rest go into the region invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ (Pipeline.ΦA spec0 c : sProp 𝕄) from Phi0_last (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1`, left at `W2`. Its arrays are
    split out of the unscoped buffers and put back at what the pipeline leaves; the generator register and the scoped
    rest go into the region invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from Phi1_last (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting; the
    result array ends at what the second pipeline's write-backs leave, and every argument as launched. -/
theorem run : θ_run defs (onTc (τ := τ) (main (F := F))) ⟨m, fun _ => 0, ρ⟩ (fun r => ∀ c : Dev nD,
      r.2.mem ((c.tc : Thread nD τ).loc main_v1) = (dat1 (V1 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_arr m c 4),
       (h c _ (mem_uc main_arg0 (by decide))).trans (W2_main_arg0 m c),
       (h c _ (mem_uc main_arg1 (by decide))).trans (W2_main_arg1 m c),
       (h c _ (mem_uc main_arg2 (by decide))).trans (W2_main_arg2 m c),
       (h c _ (mem_uc main_arg3 (by decide))).trans (W2_main_arg3 m c),
       (h c _ (mem_uc main_arg4 (by decide))).trans (W2_main_arg4 m c),
       (h c _ (mem_uc main_arg5 (by decide))).trans (W2_main_arg5 m c)⟩)

/-- The frame: the same run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run m ρ)

end Cert.Kernel.Hand

end
-- ==== Proof.KI.Common.lean ====
import proofs.«133894_j558345748855_1_alg».proof.Proof.Gen.KernelIdeal.Launch
import proofs.«133894_j558345748855_1_alg».proof.Proof.Gen.KernelIdeal.Skeleton
import proofs.«133894_j558345748855_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-! What both regions' proofs share: the two branch conditions of each kernel body as propositions of the grid
    coordinates, decided once over the 8 × 16 grid (the point number modulo 16 is the position along the contraction
    axis), and where the output window is idle and where it is written back. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0 -/

/-- The body's first conditional: this is the first tile of the contraction axis (the accumulator is reset). -/
abbrev cond0_0 (i : grid0.Coords) : Prop := (Scalar.cmpi .ne (Scalar.extui (Scalar.cmpi .eq (BitVec.ofNat 32 (i 1).val) 0#32)) 0#32) = 1#1
/-- The body's second conditional: this is the last tile of the contraction axis (the output block is stored). -/
abbrev cond0_1 (i : grid0.Coords) : Prop := k0_cond2 i = 1#1

theorem hcond0_0 : ∀ t : Fin cfg0.N, cond0_0 (grid0.coords t) ↔ t.val % 16 = 0 :=
  (by decide +kernel : ∀ t : Fin grid0.N, cond0_0 (grid0.coords t) ↔ t.val % 16 = 0)
theorem hcond0_1 : ∀ t : Fin cfg0.N, cond0_1 (grid0.coords t) ↔ t.val % 16 = 15 :=
  (by decide +kernel : ∀ t : Fin grid0.N, cond0_1 (grid0.coords t) ↔ t.val % 16 = 15)

/-- The four input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last tile the output window is idle and is not written back; on it, it is live. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-- The accumulator: a whole scoped buffer of the kernel's own. -/
abbrev scM0 : Memref sig .tc .vmem S2048x128 .f32 := Memref.whole cc0_scratch0

/-! ## Region 1 -/

abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1

theorem hcond1_0 : ∀ t : Fin cfg1.N, cond1_0 (grid1.coords t) ↔ t.val % 16 = 0 :=
  (by decide +kernel : ∀ t : Fin grid1.N, cond1_0 (grid1.coords t) ↔ t.val % 16 = 0)
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

abbrev scM1 : Memref sig .tc .vmem S2048x64 .f32 := Memref.whole cc1_scratch0

/-- The zero offsets of a whole-buffer access, however spelt. -/
theorem hz2 : (![0, 0] : Fin 2 → Nat) = fun _ => 0 := by funext a; fin_cases a <;> rfl
theorem hz1 : (![0] : Fin 1 → Nat) = fun _ => 0 := by funext a; fin_cases a; rfl

end Cert.KernelIdeal.Hand

end
-- ==== Proof.KI.Body0.lean ====
import proofs.«133894_j558345748855_1_alg».proof.Proof.KI.Common

set_option maxRecDepth 16384

noncomputable section

/-! The body of the first layer's kernel, run once per case of its two conditionals, on whole staging buffers.
    With `x` the tile of the layer's input rows, `w` the weight matrix, `a` the adjacency tile and `s` the accumulator
    as the point finds it, every point leaves the accumulator at `s + a · (x · w)` (the payload `k0_pay2`), from
    `s = 0` (the payload `k0_pay1`) on the first tile of the contraction axis; on the last tile the output block is
    stored from the new accumulator and the bias row (the payload `k0_pay3`, which holds the layer's activation). -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A tile that is neither the first nor the last of the contraction axis: the accumulator takes one more product. -/
theorem run0_mid (c : Dev nD) (i : grid0.Coords)
    (arg2 : Memref sig .tc .vmem S1024x128 .f32) (harg2 : arg2.IsWhole) (arg3 : Memref sig .tc .vmem S2048x1024 .f32) (harg3 : arg3.IsWhole)
    (arg4 : Memref sig .tc .vmem S128x128 .f32) (harg4 : arg4.IsWhole) (arg5 : Memref sig .tc .vmem S128 .f32) (harg5 : arg5.IsWhole)
    (arg6 : Memref sig .tc .vmem S2048x128 .f32) (harg6 : arg6.IsWhole) (arg7 : Memref sig .tc .vmem S2048x128 .f32) (harg7 : arg7.IsWhole)
    (hc0 : ¬cond0_0 i) (hc1 : ¬cond0_1 i)
    (x : Vec F S1024x128 .f32) (a : Vec F S2048x1024 .f32) (w : Vec F S128x128 .f32) (s : Vec F S2048x128 .f32)
    (E : Set ℕ) (K : PUnit → sProp 𝕄) :
    iprop(owns (c : Thread nD τ) arg2 fullShare x ∗ owns (c : Thread nD τ) arg3 fullShare a ∗ owns (c : Thread nD τ) arg4 fullShare w
        ∗ owns (c : Thread nD τ) arg7 fullShare s
        ∗ (iprop(owns (c : Thread nD τ) arg2 fullShare x ∗ owns (c : Thread nD τ) arg3 fullShare a ∗ owns (c : Thread nD τ) arg4 fullShare w
            ∗ owns (c : Thread nD τ) arg7 fullShare (k0_pay2 x w a s)) -∗ K ⟨⟩))
      ⊢ wp frame (wpE (defs₀ (F := F)) Variants.none c none) E (cc0__gcn_layer_kernel i arg2 harg2 arg3 harg3 arg4 harg4 arg5 harg5 arg6 harg6 arg7 harg7) K := by
  simp only [cc0__gcn_layer_kernel_eq_skeleton]; unfold cc0__gcn_layer_kernel_skel
  unfold owns
  iintro ⟨⟨%f2, %hf2, H2⟩, ⟨%f3, %hf3, H3⟩, ⟨%f4, %hf4, H4⟩, ⟨%f7, %hf7, H7⟩, Hk⟩
  obtain rfl := harg2.eq_unread hf2; obtain rfl := harg3.eq_unread hf3; obtain rfl := harg4.eq_unread hf4; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H7
  ipureintro
  rw [View.read_writes_eq_canon _ _ _ (fun y => ⟨_, List.mem_singleton_self _, View.mem_set_unit_zero hz2 inb_S2048x128_S2048x128_0_0 y⟩), View.canon_unit_zero hz2]
  simp only [View.readAt_eq_ld, harg2.read_unread, harg3.read_unread, harg4.read_unread, harg7.read_unread, View.ld_unit_zero (S := S1024x128) hz2, View.ld_unit_zero (S := S128x128) hz2, View.ld_unit_zero (S := S2048x1024) hz2, View.ld_unit_zero (S := S2048x128) hz2, View.ld_unit_zero (S := S128) hz1]

set_option maxHeartbeats 1000000 in
/-- The first tile of the contraction axis: the accumulator, whatever it held, is reset and takes the first product. -/
theorem run0_first (c : Dev nD) (i : grid0.Coords)
    (arg2 : Memref sig .tc .vmem S1024x128 .f32) (harg2 : arg2.IsWhole) (arg3 : Memref sig .tc .vmem S2048x1024 .f32) (harg3 : arg3.IsWhole)
    (arg4 : Memref sig .tc .vmem S128x128 .f32) (harg4 : arg4.IsWhole) (arg5 : Memref sig .tc .vmem S128 .f32) (harg5 : arg5.IsWhole)
    (arg6 : Memref sig .tc .vmem S2048x128 .f32) (harg6 : arg6.IsWhole) (arg7 : Memref sig .tc .vmem S2048x128 .f32) (harg7 : arg7.IsWhole)
    (hc0 : cond0_0 i) (hc1 : ¬cond0_1 i)
    (x : Vec F S1024x128 .f32) (a : Vec F S2048x1024 .f32) (w : Vec F S128x128 .f32) (s : Vec F S2048x128 .f32)
    (E : Set ℕ) (K : PUnit → sProp 𝕄) :
    iprop(owns (c : Thread nD τ) arg2 fullShare x ∗ owns (c : Thread nD τ) arg3 fullShare a ∗ owns (c : Thread nD τ) arg4 fullShare w
        ∗ owns (c : Thread nD τ) arg7 fullShare s
        ∗ (iprop(owns (c : Thread nD τ) arg2 fullShare x ∗ owns (c : Thread nD τ) arg3 fullShare a ∗ owns (c : Thread nD τ) arg4 fullShare w
            ∗ owns (c : Thread nD τ) arg7 fullShare (k0_pay2 x w a (k0_pay1 (F := F)))) -∗ K ⟨⟩))
      ⊢ wp frame (wpE (defs₀ (F := F)) Variants.none c none) E (cc0__gcn_layer_kernel i arg2 harg2 arg3 harg3 arg4 harg4 arg5 harg5 arg6 harg6 arg7 harg7) K := by
  simp only [cc0__gcn_layer_kernel_eq_skeleton]; unfold cc0__gcn_layer_kernel_skel
  unfold owns
  iintro ⟨⟨%f2, %hf2, H2⟩, ⟨%f3, %hf3, H3⟩, ⟨%f4, %hf4, H4⟩, ⟨%f7, %hf7, H7⟩, Hk⟩
  obtain rfl := harg2.eq_unread hf2; obtain rfl := harg3.eq_unread hf3; obtain rfl := harg4.eq_unread hf4; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H7
  ipureintro
  sl_unfold_words
  rw [View.read_writes_eq_canon _ _ _ (fun y => ⟨_, List.mem_cons_self, View.mem_set_unit_zero hz2 inb_S2048x128_S2048x128_0_0 y⟩), View.canon_cons_unit_zero (S := S2048x128) hz2]
  simp only [View.readAt_eq_ld, harg2.read_unread, harg3.read_unread, harg4.read_unread, harg7.read_unread, View.readCov_unit_zero (S := S2048x128) _ hz2, View.ld_unit_zero (S := S1024x128) hz2, View.ld_unit_zero (S := S128x128) hz2, View.ld_unit_zero (S := S2048x1024) hz2, View.ld_unit_zero (S := S2048x128) hz2, View.ld_unit_zero (S := S128) hz1]

set_option maxHeartbeats 1000000 in
/-- The last tile of the contraction axis: the accumulator takes the last product, and the output block is stored
    from it and the bias row `b`. -/
theorem run0_last (c : Dev nD) (i : grid0.Coords)
    (arg2 : Memref sig .tc .vmem S1024x128 .f32) (harg2 : arg2.IsWhole) (arg3 : Memref sig .tc .vmem S2048x1024 .f32) (harg3 : arg3.IsWhole)
    (arg4 : Memref sig .tc .vmem S128x128 .f32) (harg4 : arg4.IsWhole) (arg5 : Memref sig .tc .vmem S128 .f32) (harg5 : arg5.IsWhole)
    (arg6 : Memref sig .tc .vmem S2048x128 .f32) (harg6 : arg6.IsWhole) (arg7 : Memref sig .tc .vmem S2048x128 .f32) (harg7 : arg7.IsWhole)
    (hc0 : ¬cond0_0 i) (hc1 : cond0_1 i)
    (x : Vec F S1024x128 .f32) (a : Vec F S2048x1024 .f32) (w : Vec F S128x128 .f32) (b : Vec F S128 .f32) (d : Vec F S2048x128 .f32) (s : Vec F S2048x128 .f32)
    (E : Set ℕ) (K : PUnit → sProp 𝕄) :
    iprop(owns (c : Thread nD τ) arg2 fullShare x ∗ owns (c : Thread nD τ) arg3 fullShare a ∗ owns (c : Thread nD τ) arg4 fullShare w ∗ owns (c : Thread nD τ) arg5 fullShare b ∗ owns (c : Thread nD τ) arg6 fullShare d
        ∗ owns (c : Thread nD τ) arg7 fullShare s
        ∗ (iprop(owns (c : Thread nD τ) arg2 fullShare x ∗ owns (c : Thread nD τ) arg3 fullShare a ∗ owns (c : Thread nD τ) arg4 fullShare w ∗ owns (c : Thread nD τ) arg5 fullShare b
            ∗ owns (c : Thread nD τ) arg6 fullShare (k0_pay3 (k0_pay2 x w a s) b)
            ∗ owns (c : Thread nD τ) arg7 fullShare (k0_pay2 x w a s)) -∗ K ⟨⟩))
      ⊢ wp frame (wpE (defs₀ (F := F)) Variants.none c none) E (cc0__gcn_layer_kernel i arg2 harg2 arg3 harg3 arg4 harg4 arg5 harg5 arg6 harg6 arg7 harg7) K := by
  simp only [cc0__gcn_layer_kernel_eq_skeleton]; unfold cc0__gcn_layer_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_words
    rw [View.read_writes_eq_canon _ _ _ (fun y => ⟨_, List.mem_singleton_self _, View.mem_set_unit_zero hz2 inb_S2048x128_S2048x128_0_0 y⟩), View.canon_unit_zero hz2]
    simp only [View.readAt_eq_ld, harg2.read_unread, harg3.read_unread, harg4.read_unread, harg5.read_unread, harg7.read_unread, View.readCov_unit_zero (S := S2048x128) _ hz2, View.ld_unit_zero (S := S1024x128) hz2, View.ld_unit_zero (S := S128x128) hz2, View.ld_unit_zero (S := S2048x1024) hz2, View.ld_unit_zero (S := S2048x128) hz2, View.ld_unit_zero (S := S128) hz1]
  iexists _; isplitr
  swap; · iexact H7
  ipureintro
  sl_unfold_words
  rw [View.read_writes_eq_canon _ _ _ (fun y => ⟨_, List.mem_singleton_self _, View.mem_set_unit_zero hz2 inb_S2048x128_S2048x128_0_0 y⟩), View.canon_unit_zero hz2]
  simp only [View.readAt_eq_ld, harg2.read_unread, harg3.read_unread, harg4.read_unread, harg7.read_unread, View.ld_unit_zero (S := S1024x128) hz2, View.ld_unit_zero (S := S128x128) hz2, View.ld_unit_zero (S := S2048x1024) hz2, View.ld_unit_zero (S := S2048x128) hz2, View.ld_unit_zero (S := S128) hz1]

end Cert.KernelIdeal.Hand

end
-- ==== Proof.KI.Rest.lean ====
import proofs.«133894_j558345748855_1_alg».proof.Proof.KI.Common

set_option maxRecDepth 16384

noncomputable section

/-! Each pipeline's class invariant — the core's scoped buffers that the pipeline does not stage, each at some
    contents, and the generator register at some state — with the kernel's accumulator set apart as a whole memref
    owned at some contents, so that a region invariant can name what the accumulator holds. The other nine buffers
    (the other pipeline's staging buffers and accumulator) stay at anything. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Beside pipeline 0's accumulator: the other pipeline's scoped buffers, each at some contents. -/
def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; try rfl

/-- Nine conjuncts then a tenth, beside an eleventh: the tenth moved to the front. -/
theorem sep_rot10 (a1 a2 a3 a4 a5 a6 a7 a8 a9 s g : sProp 𝕄) :
    (iprop((a1 ∗ a2 ∗ a3 ∗ a4 ∗ a5 ∗ a6 ∗ a7 ∗ a8 ∗ a9 ∗ s) ∗ g) : sProp 𝕄) = iprop((s ∗ a1 ∗ a2 ∗ a3 ∗ a4 ∗ a5 ∗ a6 ∗ a7 ∗ a8 ∗ a9) ∗ g) := by
  have h₁ : (iprop((a1 ∗ a2 ∗ a3 ∗ a4 ∗ a5 ∗ a6 ∗ a7 ∗ a8 ∗ a9 ∗ s) ∗ g) : sProp 𝕄) ⊢ iprop((s ∗ a1 ∗ a2 ∗ a3 ∗ a4 ∗ a5 ∗ a6 ∗ a7 ∗ a8 ∗ a9) ∗ g) := by
    iintro ⟨⟨H1, H2, H3, H4, H5, H6, H7, H8, H9, HS⟩, Hg⟩
    isplitr [Hg]
    · isplitl [HS]; · iexact HS
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    iexact Hg
  have h₂ : (iprop((s ∗ a1 ∗ a2 ∗ a3 ∗ a4 ∗ a5 ∗ a6 ∗ a7 ∗ a8 ∗ a9) ∗ g) : sProp 𝕄) ⊢ iprop((a1 ∗ a2 ∗ a3 ∗ a4 ∗ a5 ∗ a6 ∗ a7 ∗ a8 ∗ a9 ∗ s) ∗ g) := by
    iintro ⟨⟨HS, H1, H2, H3, H4, H5, H6, H7, H8, H9⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact HS
    iexact Hg
  exact BI.equiv_iff.mp ⟨h₁, h₂⟩

/-- Beside pipeline 1's accumulator: the other pipeline's scoped buffers, each at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_scratch0), ((c : Thread nD τ).loc cc0_scratch0) ↦{fullShare} f))

/-- The same for pipeline 1, whose accumulator is the LAST of its scoped rest: the conjuncts are reordered. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA others1; rw [scopedRest1_eq]; simp only [scM1, owns_whole]
  exact sep_rot10 _ _ _ _ _ _ _ _ _ _ _

end Cert.KernelIdeal.Hand

end
-- ==== Proof.KI.Dat0.lean ====
import proofs.«133894_j558345748855_1_alg».proof.Proof.KI.Body0
import proofs.«133894_j558345748855_1_alg».proof.Proof.KI.Rest

set_option maxRecDepth 16384

noncomputable section

/-! The first layer's pipeline, at the buffer contents `V` the region is entered from: each window's block at a
    grid point; the accumulator after each point, by recursion along the points (reset on the first tile of every
    row block, one more product on each later tile); the region invariant, which carries the accumulator at exactly
    that value between points; the proof data; and the body obligation, the body's three cases chosen by the point's
    position along the contraction axis. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The same at their literal types: the tile of input rows, the adjacency tile, the weights, the bias row. -/
abbrev xblk0 (c : Dev nD) (t : Fin cfg0.N) : Vec F S1024x128 .f32 := iblk0 V c 0 t
abbrev ablk0 (c : Dev nD) (t : Fin cfg0.N) : Vec F S2048x1024 .f32 := iblk0 V c 1 t
abbrev wblk0 (c : Dev nD) (t : Fin cfg0.N) : Vec F S128x128 .f32 := iblk0 V c 2 t
abbrev bblk0 (c : Dev nD) (t : Fin cfg0.N) : Vec F S128 .f32 := iblk0 V c 3 t

/-- An input window's current staging buffer holds its block at every point, fetched there or not (where it is not
    fetched the block index has not moved), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator after each point -/

/-- What the accumulator holds after the body at point `n`: on the first tile of a row block the first product over
    zero, on every later tile one more product over what the point before left. -/
def accAt0 (c : Dev nD) : (n : ℕ) → n < cfg0.N → Vec F S2048x128 .f32
  | 0, hn => k0_pay2 (xblk0 V c ⟨0, hn⟩) (wblk0 V c ⟨0, hn⟩) (ablk0 V c ⟨0, hn⟩) (k0_pay1 (F := F))
  | n + 1, hn =>
    if (n + 1) % 16 = 0 then k0_pay2 (xblk0 V c ⟨n + 1, hn⟩) (wblk0 V c ⟨n + 1, hn⟩) (ablk0 V c ⟨n + 1, hn⟩) (k0_pay1 (F := F))
    else k0_pay2 (xblk0 V c ⟨n + 1, hn⟩) (wblk0 V c ⟨n + 1, hn⟩) (ablk0 V c ⟨n + 1, hn⟩) (accAt0 c n (Nat.lt_of_succ_lt hn))

theorem accAt0_first (c : Dev nD) (t : Fin cfg0.N) (h : t.val % 16 = 0) :
    accAt0 V c t.val t.isLt = k0_pay2 (xblk0 V c t) (wblk0 V c t) (ablk0 V c t) (k0_pay1 (F := F)) := by
  obtain ⟨n, hn⟩ := t
  cases n with
  | zero => rfl
  | succ n => exact if_pos h

theorem accAt0_next (c : Dev nD) (t : Fin cfg0.N) (h : ¬t.val % 16 = 0) :
    accAt0 V c t.val t.isLt = k0_pay2 (xblk0 V c t) (wblk0 V c t) (ablk0 V c t)
      (accAt0 V c (t.val - 1) (Nat.lt_of_le_of_lt (Nat.sub_le _ _) t.isLt)) := by
  obtain ⟨n, hn⟩ := t
  cases n with
  | zero => exact absurd (Nat.zero_mod _) h
  | succ n => exact if_neg h

/-! ## The region invariant -/

/-- The region invariant before position `n`: before the first point the class's (the accumulator at anything);
    afterwards the accumulator at what the point before left in it, the other scoped buffers and the generator
    register at anything. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (accAt0 V c n hn) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (accAt0 V c (n - 1) (by omega)) ∗ others0 c) ∗ (∃ r, prngReg c r)) := by
  cases n with
  | zero => exact absurd rfl hz
  | succ n => rfl

/-- At any position the invariant holds the accumulator at SOME contents. -/
theorem PhiS0_some (c : Dev nD) (n : ℕ) (h : n ≤ cfg0.N) :
    PhiS0 V c n h ⊢ iprop(iprop((∃ d, owns (c : Thread nD τ) scM0 fullShare d) ∗ others0 c) ∗ (∃ r, prngReg c r)) := by
  cases n with
  | zero => rw [PhiS0_zero V c 0 h rfl, PhiA0_eq]
  | succ n =>
    rw [PhiS0_succ]
    iintro ⟨⟨HS, Ho⟩, Hg⟩
    isplitl [HS Ho]
    · isplitl [HS]; · iexists _; iexact HS
      iexact Ho
    iexact Hg

/-! ## The proof data -/

/-- The proof data of the first layer's pipeline on core `c`: the arrays as the region finds them; after the body each
    input's buffer at its block, the output's at the payload of the accumulator and the bias row (consulted on the last tile only);
    the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay3 (accAt0 V c t.val t.isLt) (bblk0 V c t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay3 (accAt0 V c t.val t.isLt) (bblk0 V c t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem live0_0 (c : Dev nD) (t : Fin cfg0.N) : (dat0 V c).leavesExact 0 t = owns (c : Thread nD τ) (st0_0 t) fullShare (iblk0 V c 0 t) := by
  unfold Dat.leavesExact; rw [liveAt0_0 t, after0_0]
theorem live0_1 (c : Dev nD) (t : Fin cfg0.N) : (dat0 V c).leavesExact 1 t = owns (c : Thread nD τ) (st0_1 t) fullShare (iblk0 V c 1 t) := by
  unfold Dat.leavesExact; rw [liveAt0_1 t, after0_1]
theorem live0_2 (c : Dev nD) (t : Fin cfg0.N) : (dat0 V c).leavesExact 2 t = owns (c : Thread nD τ) (st0_2 t) fullShare (iblk0 V c 2 t) := by
  unfold Dat.leavesExact; rw [liveAt0_2 t, after0_2]
theorem live0_3 (c : Dev nD) (t : Fin cfg0.N) : (dat0 V c).leavesExact 3 t = owns (c : Thread nD τ) (st0_3 t) fullShare (iblk0 V c 3 t) := by
  unfold Dat.leavesExact; rw [liveAt0_3 t, after0_3]

set_option maxHeartbeats 4800000 in
/-- The body at any point. The inputs' staging buffers hold their blocks; the point's position along the contraction
    axis says which case of the body runs; the invariant hands the body the accumulator (at what the point before
    left, or at anything before the first point) and takes it back at this point's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [live0_0, live0_1, live0_2, live0_3, PhiS0_castSucc V c t]
  have hN : t.val < 128 := lt_of_lt_of_eq t.isLt (show cfg0.N = 128 from N_0)
  by_cases h1 : t.val % 16 = 15
  · have h0 : ¬t.val % 16 = 0 := by omega
    have hz : t.val ≠ 0 := by intro h; rw [h] at h1; omega
    rw [show (dat0 V c).leavesExact 4 t = owns (c : Thread nD τ) (st0_4 t) fullShare ((dat0 V c).after 4 t) from by
      unfold Dat.leavesExact; rw [liveAt0_4 t ((hcond0_1 t).mpr h1)], after0_4]
    rw [accAt0_next V c t h0, PhiS0_pos V c _ _ hz]
    iintro ⟨⟨⟨HS, Hoth⟩, Hg⟩, Ho, ⟨%d0, H0⟩, ⟨%d1, H1⟩, ⟨%d2, H2⟩, ⟨%d3, H3⟩, ⟨%d4, H4⟩⟩
    iapply (run0_last c (grid0.coords t) _ _ _ _ _ _ _ _ _ _ _ _ (fun h => h0 ((hcond0_0 t).mp h)) ((hcond0_1 t).mpr h1)
      (xblk0 V c t) (ablk0 V c t) (wblk0 V c t) (bblk0 V c t) ((dat0 V c).before 4 t d4)
      (accAt0 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4
  · rw [Dat.leavesExact_idle (dat0 V c) 4 t (idleAt0_4 t (fun h => h1 ((hcond0_1 t).mp h))) (noFlush0_4 t (fun h => h1 ((hcond0_1 t).mp h)))]
    by_cases h0 : t.val % 16 = 0
    · rw [accAt0_first V c t h0]
      iintro ⟨HΦ, Ho, ⟨%d0, H0⟩, ⟨%d1, H1⟩, ⟨%d2, H2⟩, ⟨%d3, H3⟩, ⟨%d4, H4⟩⟩
      ihave HΦ' := (PhiS0_some V c t.val (Nat.le_of_lt t.isLt)) $$ HΦ
      icases HΦ' with ⟨⟨⟨%s, HS⟩, Hoth⟩, Hg⟩
      iapply (run0_first c (grid0.coords t) _ _ _ _ _ _ _ _ _ _ _ _ ((hcond0_0 t).mpr h0) (fun h => h1 ((hcond0_1 t).mp h))
        (xblk0 V c t) (ablk0 V c t) (wblk0 V c t) s Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexists _; iexact H4
    · have hz : t.val ≠ 0 := by intro h; rw [h] at h0; omega
      rw [accAt0_next V c t h0, PhiS0_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply (run0_mid c (grid0.coords t) _ _ _ _ _ _ _ _ _ _ _ _ (fun h => h0 ((hcond0_0 t).mp h)) (fun h => h1 ((hcond0_1 t).mp h))
        (xblk0 V c t) (ablk0 V c t) (wblk0 V c t)
        (accAt0 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After the last point the invariant gives the class's back: the accumulator's value is forgotten. -/
theorem Phi0_last (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl, PhiA0_eq]
  exact PhiS0_some V c _ _

end

end Cert.KernelIdeal.Hand

end
-- ==== Proof.KI.Body1.lean ====
import proofs.«133894_j558345748855_1_alg».proof.Proof.KI.Common

set_option maxRecDepth 16384

noncomputable section

/-! The body of the second layer's kernel, run once per case of its two conditionals, on whole staging buffers.
    With `x` the tile of the layer's input rows, `w` the weight matrix, `a` the adjacency tile and `s` the accumulator
    as the point finds it, every point leaves the accumulator at `s + a · (x · w)` (the payload `k1_pay2`), from
    `s = 0` (the payload `k1_pay1`) on the first tile of the contraction axis; on the last tile the output block is
    stored from the new accumulator and the bias row (the payload `k1_pay3`, which holds the layer's activation). -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A tile that is neither the first nor the last of the contraction axis: the accumulator takes one more product. -/
theorem run1_mid (c : Dev nD) (i : grid1.Coords)
    (arg2 : Memref sig .tc .vmem S1024x128 .f32) (harg2 : arg2.IsWhole) (arg3 : Memref sig .tc .vmem S2048x1024 .f32) (harg3 : arg3.IsWhole)
    (arg4 : Memref sig .tc .vmem S128x64 .f32) (harg4 : arg4.IsWhole) (arg5 : Memref sig .tc .vmem S64 .f32) (harg5 : arg5.IsWhole)
    (arg6 : Memref sig .tc .vmem S2048x64 .f32) (harg6 : arg6.IsWhole) (arg7 : Memref sig .tc .vmem S2048x64 .f32) (harg7 : arg7.IsWhole)
    (hc0 : ¬cond1_0 i) (hc1 : ¬cond1_1 i)
    (x : Vec F S1024x128 .f32) (a : Vec F S2048x1024 .f32) (w : Vec F S128x64 .f32) (s : Vec F S2048x64 .f32)
    (E : Set ℕ) (K : PUnit → sProp 𝕄) :
    iprop(owns (c : Thread nD τ) arg2 fullShare x ∗ owns (c : Thread nD τ) arg3 fullShare a ∗ owns (c : Thread nD τ) arg4 fullShare w
        ∗ owns (c : Thread nD τ) arg7 fullShare s
        ∗ (iprop(owns (c : Thread nD τ) arg2 fullShare x ∗ owns (c : Thread nD τ) arg3 fullShare a ∗ owns (c : Thread nD τ) arg4 fullShare w
            ∗ owns (c : Thread nD τ) arg7 fullShare (k1_pay2 x w a s)) -∗ K ⟨⟩))
      ⊢ wp frame (wpE (defs₀ (F := F)) Variants.none c none) E (cc1__gcn_layer_kernel i arg2 harg2 arg3 harg3 arg4 harg4 arg5 harg5 arg6 harg6 arg7 harg7) K := by
  simp only [cc1__gcn_layer_kernel_eq_skeleton]; unfold cc1__gcn_layer_kernel_skel
  unfold owns
  iintro ⟨⟨%f2, %hf2, H2⟩, ⟨%f3, %hf3, H3⟩, ⟨%f4, %hf4, H4⟩, ⟨%f7, %hf7, H7⟩, Hk⟩
  obtain rfl := harg2.eq_unread hf2; obtain rfl := harg3.eq_unread hf3; obtain rfl := harg4.eq_unread hf4; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H7
  ipureintro
  rw [View.read_writes_eq_canon _ _ _ (fun y => ⟨_, List.mem_singleton_self _, View.mem_set_unit_zero hz2 inb_S2048x64_S2048x64_0_0 y⟩), View.canon_unit_zero hz2]
  simp only [View.readAt_eq_ld, harg2.read_unread, harg3.read_unread, harg4.read_unread, harg7.read_unread, View.ld_unit_zero (S := S1024x128) hz2, View.ld_unit_zero (S := S128x64) hz2, View.ld_unit_zero (S := S2048x1024) hz2, View.ld_unit_zero (S := S2048x64) hz2, View.ld_unit_zero (S := S64) hz1]

set_option maxHeartbeats 1000000 in
/-- The first tile of the contraction axis: the accumulator, whatever it held, is reset and takes the first product. -/
theorem run1_first (c : Dev nD) (i : grid1.Coords)
    (arg2 : Memref sig .tc .vmem S1024x128 .f32) (harg2 : arg2.IsWhole) (arg3 : Memref sig .tc .vmem S2048x1024 .f32) (harg3 : arg3.IsWhole)
    (arg4 : Memref sig .tc .vmem S128x64 .f32) (harg4 : arg4.IsWhole) (arg5 : Memref sig .tc .vmem S64 .f32) (harg5 : arg5.IsWhole)
    (arg6 : Memref sig .tc .vmem S2048x64 .f32) (harg6 : arg6.IsWhole) (arg7 : Memref sig .tc .vmem S2048x64 .f32) (harg7 : arg7.IsWhole)
    (hc0 : cond1_0 i) (hc1 : ¬cond1_1 i)
    (x : Vec F S1024x128 .f32) (a : Vec F S2048x1024 .f32) (w : Vec F S128x64 .f32) (s : Vec F S2048x64 .f32)
    (E : Set ℕ) (K : PUnit → sProp 𝕄) :
    iprop(owns (c : Thread nD τ) arg2 fullShare x ∗ owns (c : Thread nD τ) arg3 fullShare a ∗ owns (c : Thread nD τ) arg4 fullShare w
        ∗ owns (c : Thread nD τ) arg7 fullShare s
        ∗ (iprop(owns (c : Thread nD τ) arg2 fullShare x ∗ owns (c : Thread nD τ) arg3 fullShare a ∗ owns (c : Thread nD τ) arg4 fullShare w
            ∗ owns (c : Thread nD τ) arg7 fullShare (k1_pay2 x w a (k1_pay1 (F := F)))) -∗ K ⟨⟩))
      ⊢ wp frame (wpE (defs₀ (F := F)) Variants.none c none) E (cc1__gcn_layer_kernel i arg2 harg2 arg3 harg3 arg4 harg4 arg5 harg5 arg6 harg6 arg7 harg7) K := by
  simp only [cc1__gcn_layer_kernel_eq_skeleton]; unfold cc1__gcn_layer_kernel_skel
  unfold owns
  iintro ⟨⟨%f2, %hf2, H2⟩, ⟨%f3, %hf3, H3⟩, ⟨%f4, %hf4, H4⟩, ⟨%f7, %hf7, H7⟩, Hk⟩
  obtain rfl := harg2.eq_unread hf2; obtain rfl := harg3.eq_unread hf3; obtain rfl := harg4.eq_unread hf4; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H7
  ipureintro
  sl_unfold_words
  rw [View.read_writes_eq_canon _ _ _ (fun y => ⟨_, List.mem_cons_self, View.mem_set_unit_zero hz2 inb_S2048x64_S2048x64_0_0 y⟩), View.canon_cons_unit_zero (S := S2048x64) hz2]
  simp only [View.readAt_eq_ld, harg2.read_unread, harg3.read_unread, harg4.read_unread, harg7.read_unread, View.readCov_unit_zero (S := S2048x64) _ hz2, View.ld_unit_zero (S := S1024x128) hz2, View.ld_unit_zero (S := S128x64) hz2, View.ld_unit_zero (S := S2048x1024) hz2, View.ld_unit_zero (S := S2048x64) hz2, View.ld_unit_zero (S := S64) hz1]

set_option maxHeartbeats 1000000 in
/-- The last tile of the contraction axis: the accumulator takes the last product, and the output block is stored
    from it and the bias row `b`. -/
theorem run1_last (c : Dev nD) (i : grid1.Coords)
    (arg2 : Memref sig .tc .vmem S1024x128 .f32) (harg2 : arg2.IsWhole) (arg3 : Memref sig .tc .vmem S2048x1024 .f32) (harg3 : arg3.IsWhole)
    (arg4 : Memref sig .tc .vmem S128x64 .f32) (harg4 : arg4.IsWhole) (arg5 : Memref sig .tc .vmem S64 .f32) (harg5 : arg5.IsWhole)
    (arg6 : Memref sig .tc .vmem S2048x64 .f32) (harg6 : arg6.IsWhole) (arg7 : Memref sig .tc .vmem S2048x64 .f32) (harg7 : arg7.IsWhole)
    (hc0 : ¬cond1_0 i) (hc1 : cond1_1 i)
    (x : Vec F S1024x128 .f32) (a : Vec F S2048x1024 .f32) (w : Vec F S128x64 .f32) (b : Vec F S64 .f32) (d : Vec F S2048x64 .f32) (s : Vec F S2048x64 .f32)
    (E : Set ℕ) (K : PUnit → sProp 𝕄) :
    iprop(owns (c : Thread nD τ) arg2 fullShare x ∗ owns (c : Thread nD τ) arg3 fullShare a ∗ owns (c : Thread nD τ) arg4 fullShare w ∗ owns (c : Thread nD τ) arg5 fullShare b ∗ owns (c : Thread nD τ) arg6 fullShare d
        ∗ owns (c : Thread nD τ) arg7 fullShare s
        ∗ (iprop(owns (c : Thread nD τ) arg2 fullShare x ∗ owns (c : Thread nD τ) arg3 fullShare a ∗ owns (c : Thread nD τ) arg4 fullShare w ∗ owns (c : Thread nD τ) arg5 fullShare b
            ∗ owns (c : Thread nD τ) arg6 fullShare (k1_pay3 (k1_pay2 x w a s) b)
            ∗ owns (c : Thread nD τ) arg7 fullShare (k1_pay2 x w a s)) -∗ K ⟨⟩))
      ⊢ wp frame (wpE (defs₀ (F := F)) Variants.none c none) E (cc1__gcn_layer_kernel i arg2 harg2 arg3 harg3 arg4 harg4 arg5 harg5 arg6 harg6 arg7 harg7) K := by
  simp only [cc1__gcn_layer_kernel_eq_skeleton]; unfold cc1__gcn_layer_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_words
    rw [View.read_writes_eq_canon _ _ _ (fun y => ⟨_, List.mem_singleton_self _, View.mem_set_unit_zero hz2 inb_S2048x64_S2048x64_0_0 y⟩), View.canon_unit_zero hz2]
    simp only [View.readAt_eq_ld, harg2.read_unread, harg3.read_unread, harg4.read_unread, harg5.read_unread, harg7.read_unread, View.readCov_unit_zero (S := S2048x64) _ hz2, View.ld_unit_zero (S := S1024x128) hz2, View.ld_unit_zero (S := S128x64) hz2, View.ld_unit_zero (S := S2048x1024) hz2, View.ld_unit_zero (S := S2048x64) hz2, View.ld_unit_zero (S := S64) hz1]
  iexists _; isplitr
  swap; · iexact H7
  ipureintro
  sl_unfold_words
  rw [View.read_writes_eq_canon _ _ _ (fun y => ⟨_, List.mem_singleton_self _, View.mem_set_unit_zero hz2 inb_S2048x64_S2048x64_0_0 y⟩), View.canon_unit_zero hz2]
  simp only [View.readAt_eq_ld, harg2.read_unread, harg3.read_unread, harg4.read_unread, harg7.read_unread, View.ld_unit_zero (S := S1024x128) hz2, View.ld_unit_zero (S := S128x64) hz2, View.ld_unit_zero (S := S2048x1024) hz2, View.ld_unit_zero (S := S2048x64) hz2, View.ld_unit_zero (S := S64) hz1]

end Cert.KernelIdeal.Hand

end
-- ==== Proof.KI.Dat1.lean ====
import proofs.«133894_j558345748855_1_alg».proof.Proof.KI.Body1
import proofs.«133894_j558345748855_1_alg».proof.Proof.KI.Rest

set_option maxRecDepth 16384

noncomputable section

/-! The first layer's pipeline, at the buffer contents `V` the region is entered from: each window's block at a
    grid point; the accumulator after each point, by recursion along the points (reset on the first tile of every
    row block, one more product on each later tile); the region invariant, which carries the accumulator at exactly
    that value between points; the proof data; and the body obligation, the body's three cases chosen by the point's
    position along the contraction axis. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The same at their literal types: the tile of input rows, the adjacency tile, the weights, the bias row. -/
abbrev xblk1 (c : Dev nD) (t : Fin cfg1.N) : Vec F S1024x128 .f32 := iblk1 V c 0 t
abbrev ablk1 (c : Dev nD) (t : Fin cfg1.N) : Vec F S2048x1024 .f32 := iblk1 V c 1 t
abbrev wblk1 (c : Dev nD) (t : Fin cfg1.N) : Vec F S128x64 .f32 := iblk1 V c 2 t
abbrev bblk1 (c : Dev nD) (t : Fin cfg1.N) : Vec F S64 .f32 := iblk1 V c 3 t

/-- An input window's current staging buffer holds its block at every point, fetched there or not (where it is not
    fetched the block index has not moved), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator after each point -/

/-- What the accumulator holds after the body at point `n`: on the first tile of a row block the first product over
    zero, on every later tile one more product over what the point before left. -/
def accAt1 (c : Dev nD) : (n : ℕ) → n < cfg1.N → Vec F S2048x64 .f32
  | 0, hn => k1_pay2 (xblk1 V c ⟨0, hn⟩) (wblk1 V c ⟨0, hn⟩) (ablk1 V c ⟨0, hn⟩) (k1_pay1 (F := F))
  | n + 1, hn =>
    if (n + 1) % 16 = 0 then k1_pay2 (xblk1 V c ⟨n + 1, hn⟩) (wblk1 V c ⟨n + 1, hn⟩) (ablk1 V c ⟨n + 1, hn⟩) (k1_pay1 (F := F))
    else k1_pay2 (xblk1 V c ⟨n + 1, hn⟩) (wblk1 V c ⟨n + 1, hn⟩) (ablk1 V c ⟨n + 1, hn⟩) (accAt1 c n (Nat.lt_of_succ_lt hn))

theorem accAt1_first (c : Dev nD) (t : Fin cfg1.N) (h : t.val % 16 = 0) :
    accAt1 V c t.val t.isLt = k1_pay2 (xblk1 V c t) (wblk1 V c t) (ablk1 V c t) (k1_pay1 (F := F)) := by
  obtain ⟨n, hn⟩ := t
  cases n with
  | zero => rfl
  | succ n => exact if_pos h

theorem accAt1_next (c : Dev nD) (t : Fin cfg1.N) (h : ¬t.val % 16 = 0) :
    accAt1 V c t.val t.isLt = k1_pay2 (xblk1 V c t) (wblk1 V c t) (ablk1 V c t)
      (accAt1 V c (t.val - 1) (Nat.lt_of_le_of_lt (Nat.sub_le _ _) t.isLt)) := by
  obtain ⟨n, hn⟩ := t
  cases n with
  | zero => exact absurd (Nat.zero_mod _) h
  | succ n => exact if_neg h

/-! ## The region invariant -/

/-- The region invariant before position `n`: before the first point the class's (the accumulator at anything);
    afterwards the accumulator at what the point before left in it, the other scoped buffers and the generator
    register at anything. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (accAt1 V c n hn) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare (accAt1 V c (n - 1) (by omega)) ∗ others1 c) ∗ (∃ r, prngReg c r)) := by
  cases n with
  | zero => exact absurd rfl hz
  | succ n => rfl

/-- At any position the invariant holds the accumulator at SOME contents. -/
theorem PhiS1_some (c : Dev nD) (n : ℕ) (h : n ≤ cfg1.N) :
    PhiS1 V c n h ⊢ iprop(iprop((∃ d, owns (c : Thread nD τ) scM1 fullShare d) ∗ others1 c) ∗ (∃ r, prngReg c r)) := by
  cases n with
  | zero => rw [PhiS1_zero V c 0 h rfl, PhiA1_eq]
  | succ n =>
    rw [PhiS1_succ]
    iintro ⟨⟨HS, Ho⟩, Hg⟩
    isplitl [HS Ho]
    · isplitl [HS]; · iexists _; iexact HS
      iexact Ho
    iexact Hg

/-! ## The proof data -/

/-- The proof data of the second layer's pipeline on core `c`: the arrays as the region finds them; after the body each
    input's buffer at its block, the output's at the payload of the accumulator and the bias row (consulted on the last tile only);
    the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (accAt1 V c t.val t.isLt) (bblk1 V c t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay3 (accAt1 V c t.val t.isLt) (bblk1 V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem live1_0 (c : Dev nD) (t : Fin cfg1.N) : (dat1 V c).leavesExact 0 t = owns (c : Thread nD τ) (st1_0 t) fullShare (iblk1 V c 0 t) := by
  unfold Dat.leavesExact; rw [liveAt1_0 t, after1_0]
theorem live1_1 (c : Dev nD) (t : Fin cfg1.N) : (dat1 V c).leavesExact 1 t = owns (c : Thread nD τ) (st1_1 t) fullShare (iblk1 V c 1 t) := by
  unfold Dat.leavesExact; rw [liveAt1_1 t, after1_1]
theorem live1_2 (c : Dev nD) (t : Fin cfg1.N) : (dat1 V c).leavesExact 2 t = owns (c : Thread nD τ) (st1_2 t) fullShare (iblk1 V c 2 t) := by
  unfold Dat.leavesExact; rw [liveAt1_2 t, after1_2]
theorem live1_3 (c : Dev nD) (t : Fin cfg1.N) : (dat1 V c).leavesExact 3 t = owns (c : Thread nD τ) (st1_3 t) fullShare (iblk1 V c 3 t) := by
  unfold Dat.leavesExact; rw [liveAt1_3 t, after1_3]

set_option maxHeartbeats 4800000 in
/-- The body at any point. The inputs' staging buffers hold their blocks; the point's position along the contraction
    axis says which case of the body runs; the invariant hands the body the accumulator (at what the point before
    left, or at anything before the first point) and takes it back at this point's value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [live1_0, live1_1, live1_2, live1_3, PhiS1_castSucc V c t]
  have hN : t.val < 128 := lt_of_lt_of_eq t.isLt (show cfg1.N = 128 from N_1)
  by_cases h1 : t.val % 16 = 15
  · have h0 : ¬t.val % 16 = 0 := by omega
    have hz : t.val ≠ 0 := by intro h; rw [h] at h1; omega
    rw [show (dat1 V c).leavesExact 4 t = owns (c : Thread nD τ) (st1_4 t) fullShare ((dat1 V c).after 4 t) from by
      unfold Dat.leavesExact; rw [liveAt1_4 t ((hcond1_1 t).mpr h1)], after1_4]
    rw [accAt1_next V c t h0, PhiS1_pos V c _ _ hz]
    iintro ⟨⟨⟨HS, Hoth⟩, Hg⟩, Ho, ⟨%d0, H0⟩, ⟨%d1, H1⟩, ⟨%d2, H2⟩, ⟨%d3, H3⟩, ⟨%d4, H4⟩⟩
    iapply (run1_last c (grid1.coords t) _ _ _ _ _ _ _ _ _ _ _ _ (fun h => h0 ((hcond1_0 t).mp h)) ((hcond1_1 t).mpr h1)
      (xblk1 V c t) (ablk1 V c t) (wblk1 V c t) (bblk1 V c t) ((dat1 V c).before 4 t d4)
      (accAt1 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4
  · rw [Dat.leavesExact_idle (dat1 V c) 4 t (idleAt1_4 t (fun h => h1 ((hcond1_1 t).mp h))) (noFlush1_4 t (fun h => h1 ((hcond1_1 t).mp h)))]
    by_cases h0 : t.val % 16 = 0
    · rw [accAt1_first V c t h0]
      iintro ⟨HΦ, Ho, ⟨%d0, H0⟩, ⟨%d1, H1⟩, ⟨%d2, H2⟩, ⟨%d3, H3⟩, ⟨%d4, H4⟩⟩
      ihave HΦ' := (PhiS1_some V c t.val (Nat.le_of_lt t.isLt)) $$ HΦ
      icases HΦ' with ⟨⟨⟨%s, HS⟩, Hoth⟩, Hg⟩
      iapply (run1_first c (grid1.coords t) _ _ _ _ _ _ _ _ _ _ _ _ ((hcond1_0 t).mpr h0) (fun h => h1 ((hcond1_1 t).mp h))
        (xblk1 V c t) (ablk1 V c t) (wblk1 V c t) s Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexists _; iexact H4
    · have hz : t.val ≠ 0 := by intro h; rw [h] at h0; omega
      rw [accAt1_next V c t h0, PhiS1_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply (run1_mid c (grid1.coords t) _ _ _ _ _ _ _ _ _ _ _ _ (fun h => h0 ((hcond1_0 t).mp h)) (fun h => h1 ((hcond1_1 t).mp h))
        (xblk1 V c t) (ablk1 V c t) (wblk1 V c t)
        (accAt1 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After the last point the invariant gives the class's back: the accumulator's value is forgotten. -/
theorem Phi1_last (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl, PhiA1_eq]
  exact PhiS1_some V c _ _

end

end Cert.KernelIdeal.Hand

end
-- ==== Proof.KI.Run.lean ====
import proofs.«133894_j558345748855_1_alg».proof.Proof.KI.Dat0
import proofs.«133894_j558345748855_1_alg».proof.Proof.KI.Dat1

set_option maxRecDepth 16384

noncomputable section

/-! The run of the whole program: two kernel regions, one after the other, no host operation between them.
    The buffer contents at the two boundaries are a fold from the launch memory: after a region each of its arrays holds
    what the pipeline's write-backs leave (the inputs as entered, the output the blocks its last tiles stored), every
    other buffer what it held. The second region is entered from the first one's exit contents, so its input rows are
    the first layer's result. Each region is a record of its obligations over the thread state "every unscoped buffer
    at the boundary's contents, the generator register at some state, nothing owed"; the launch composes them, and the
    last thread state read against the final memory names the result array and gives every argument back as launched. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b
/-- After the first region: its arrays at what the pipeline leaves, every other buffer as launched. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second region, entered from the first one's exit contents. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ### The arguments end as launched: a region reads one through an input window or leaves it alone -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl

theorem W2_main_arg1 (c : Dev nD) : W2 m c (Proc.devRef .tc main_arg1) = m ((c : Thread nD τ).loc main_arg1) :=
  calc W2 m c (Proc.devRef .tc main_arg1)
    _ = W1 m c (Proc.devRef .tc main_arg1) := (W2_arr m c 1).trans (((dat1 (V1 m) c).arrAt_in 1 rfl _).trans (A_eq1 (V1 m) c 1))
    _ = W0 m c (Proc.devRef .tc main_arg1) := (W1_arr m c 1).trans (((dat0 (V0 m) c).arrAt_in 1 rfl _).trans (A_eq0 (V0 m) c 1))
    _ = m ((c : Thread nD τ).loc main_arg1) := rfl

theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 2).trans (((dat0 (V0 m) c).arrAt_in 2 rfl _).trans (A_eq0 (V0 m) c 2))
    _ = m ((c : Thread nD τ).loc main_arg2) := rfl

theorem W2_main_arg3 (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := (W1_arr m c 3).trans (((dat0 (V0 m) c).arrAt_in 3 rfl _).trans (A_eq0 (V0 m) c 3))
    _ = m ((c : Thread nD τ).loc main_arg3) := rfl

theorem W2_main_arg4 (c : Dev nD) : W2 m c (Proc.devRef .tc main_arg4) = m ((c : Thread nD τ).loc main_arg4) :=
  calc W2 m c (Proc.devRef .tc main_arg4)
    _ = W1 m c (Proc.devRef .tc main_arg4) := (W2_arr m c 2).trans (((dat1 (V1 m) c).arrAt_in 2 rfl _).trans (A_eq1 (V1 m) c 2))
    _ = W0 m c (Proc.devRef .tc main_arg4) := W1_of_ne m c main_arg4 (by decide)
    _ = m ((c : Thread nD τ).loc main_arg4) := rfl

theorem W2_main_arg5 (c : Dev nD) : W2 m c (Proc.devRef .tc main_arg5) = m ((c : Thread nD τ).loc main_arg5) :=
  calc W2 m c (Proc.devRef .tc main_arg5)
    _ = W1 m c (Proc.devRef .tc main_arg5) := (W2_arr m c 3).trans (((dat1 (V1 m) c).arrAt_in 3 rfl _).trans (A_eq1 (V1 m) c 3))
    _ = W0 m c (Proc.devRef .tc main_arg5) := W1_of_ne m c main_arg5 (by decide)
    _ = m ((c : Thread nD τ).loc main_arg5) := rfl

/-- The second region's input rows are the first region's result array. -/
theorem V1_main_v0 (c : Dev nD) : V1 m c main_v0 = (dat0 (V0 m) c).arrAt 4 cfg0.N := W1_arr m c 4
/-- Its other three arrays are arguments, as launched. -/
theorem V1_main_arg1 (c : Dev nD) : V1 m c main_arg1 = m ((c : Thread nD τ).loc main_arg1) :=
  (W1_arr m c 1).trans (((dat0 (V0 m) c).arrAt_in 1 rfl _).trans (A_eq0 (V0 m) c 1))
theorem V1_main_arg4 (c : Dev nD) : V1 m c main_arg4 = m ((c : Thread nD τ).loc main_arg4) := W1_of_ne m c main_arg4 (by decide)
theorem V1_main_arg5 (c : Dev nD) : V1 m c main_arg5 = m ((c : Thread nD τ).loc main_arg5) := W1_of_ne m c main_arg5 (by decide)

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers through both regions: the generator register at some state, nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- Region 0 over the thread state: entered from every unscoped buffer at `W0`, left at `W1`. Its arrays are
    split out of the unscoped buffers and put back at what the pipeline leaves; the generator register and the scoped
    rest go into the region invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ (Pipeline.ΦA spec0 c : sProp 𝕄) from Phi0_last (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1`, left at `W2`. Its arrays are
    split out of the unscoped buffers and put back at what the pipeline leaves; the generator register and the scoped
    rest go into the region invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from Phi1_last (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting; the
    result array ends at what the second pipeline's write-backs leave, and every argument as launched. -/
theorem run : θ_run defs (onTc (τ := τ) (main (F := F))) ⟨m, fun _ => 0, ρ⟩ (fun r => ∀ c : Dev nD,
      r.2.mem ((c.tc : Thread nD τ).loc main_v1) = (dat1 (V1 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_arr m c 4),
       (h c _ (mem_uc main_arg0 (by decide))).trans (W2_main_arg0 m c),
       (h c _ (mem_uc main_arg1 (by decide))).trans (W2_main_arg1 m c),
       (h c _ (mem_uc main_arg2 (by decide))).trans (W2_main_arg2 m c),
       (h c _ (mem_uc main_arg3 (by decide))).trans (W2_main_arg3 m c),
       (h c _ (mem_uc main_arg4 (by decide))).trans (W2_main_arg4 m c),
       (h c _ (mem_uc main_arg5 (by decide))).trans (W2_main_arg5 m c)⟩)

/-- The frame: the same run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run m ρ)

end Cert.KernelIdeal.Hand

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.KI.Pay0.lean ====
import proofs.«133894_j558345748855_1_alg».proof.Proof.Gen.KernelIdeal.Skeleton
import proofs.«133894_j558345748855_1_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

noncomputable section

/-! The first layer's kernel body reads, over the extended reals, as three functions of what it loads, entry by entry.
    Changes of float format are the identity and a matrix product into a zero accumulator is a finite sum, so with
    `x` the tile of input rows (1024 × 128), `w` the weights (128 × 128), `a` the adjacency tile (2048 × 1024), `s` the
    accumulator (2048 × 128) and `b` the bias row:
      the reset value is 0;
      the accumulator's new value at (p, j) is  s[p, j] + ∑ kk, a[p, kk] · (∑ f, x[kk, f] · w[f, j]);
      the stored output at (p, j) is  max (s[p, j] + b[j]) 0. -/

namespace Cert.KernelIdeal.Hand

open Cert.KernelIdeal Cert.KernelIdeal.Gen
open Idealize.ShloMosaic Idealize.ShloMosaic.ValueIdx

/-- The layer's activation: the clamp below at zero. -/
abbrev act0 (v : EReal) : EReal := max v 0

theorem k0_pay1_apply (y : S2048x128.Idx) : k0_pay1 (F := Ideal) y = 0 := by
  unfold k0_pay1
  rw [shapeCast_self, broadcast_apply]
  exact Ideal.ofBits_zero_f32

theorem k0_pay2_apply (x : Vec Ideal S1024x128 .f32) (w : Vec Ideal S128x128 .f32) (a : Vec Ideal S2048x1024 .f32) (s : Vec Ideal S2048x128 .f32)
    (p : Fin 2048) (j : Fin 128) :
    k0_pay2 x w a s (ix2 p j) = s (ix2 p j) + ∑ kk : Fin 1024, a (ix2 p kk) * ∑ f : Fin 128, x (ix2 kk f) * w (ix2 f j) := by
  unfold k0_pay2
  rw [shapeCast_self, addf_apply]
  congr 1
  rw [show dot_S2048x1024_S1024x128_S2048x128_1_0_0_1_n_n = DotDims.plain 2048 1024 128 from rfl, MatmulPlain.matmul_zero_apply]
  refine Finset.sum_congr rfl fun kk _ => ?_
  rw [truncf_apply, truncf_apply]
  congr 1
  rw [show dot_S1024x128_S128x128_S1024x128_1_0_0_1_n_n = DotDims.plain 1024 128 128 from rfl, MatmulPlain.matmul_zero_apply]
  refine Finset.sum_congr rfl fun f _ => ?_
  rw [truncf_apply, truncf_apply]

theorem k0_pay3_apply (s : Vec Ideal S2048x128 .f32) (b : Vec Ideal S128 .f32) (p : Fin 2048) (j : Fin 128) :
    k0_pay3 s b (ix2 p j) = act0 (s (ix2 p j) + b (ix1 j)) := by
  unfold k0_pay3
  rw [maximumf_apply, addf_apply, broadcastTo_1b_ab_apply, shapeCast_a_1a_apply, broadcast_apply]
  show max _ (Ideal.ofBits .f32 0x00000000#32) = max _ 0
  rw [Ideal.ofBits_zero_f32]

end Cert.KernelIdeal.Hand

end
-- ==== Proof.Spec.lean ====
/-
  The mathematics both programs compute, stated once over the extended reals and over arrays of any sizes.
  A graph-convolution layer takes node features `x` (n × fin), a dense adjacency matrix `adj` (n × n), weights `w`
  (fin × h) and a bias row `b` (h); its entry (i, j) before the activation is
      ∑ k, adj[i, k] · (∑ f, x[k, f] · w[f, j])  +  b[j].
  The network is two such layers over ONE adjacency matrix, the first clamped below at zero.
-/
import Idealize.ShloMosaic.PureOps.Ideal
import Idealize.ShloMosaic.Lib.ValueIdx

noncomputable section

namespace Cert.Spec

open Idealize.ShloMosaic Idealize.ShloMosaic.ValueIdx

variable {n fin h : ℕ}

/-- Entry (k, j) of the projected features `x · w`. -/
def support (x : (⟨2, ![n, fin]⟩ : Shape).Idx → EReal) (w : (⟨2, ![fin, h]⟩ : Shape).Idx → EReal) (k : Fin n) (j : Fin h) : EReal :=
  ∑ f : Fin fin, x (ix2 k f) * w (ix2 f j)

/-- Entry (i, j) of a layer before its activation: the aggregated projected features plus the bias. -/
def preAt (x : (⟨2, ![n, fin]⟩ : Shape).Idx → EReal) (adj : (⟨2, ![n, n]⟩ : Shape).Idx → EReal)
    (w : (⟨2, ![fin, h]⟩ : Shape).Idx → EReal) (b : (⟨1, ![h]⟩ : Shape).Idx → EReal) (i : Fin n) (j : Fin h) : EReal :=
  (∑ k : Fin n, adj (ix2 i k) * support x w k j) + b (ix1 j)

/-- A layer with the clamp at zero, as an array. -/
def layerRelu (x : (⟨2, ![n, fin]⟩ : Shape).Idx → EReal) (adj : (⟨2, ![n, n]⟩ : Shape).Idx → EReal)
    (w : (⟨2, ![fin, h]⟩ : Shape).Idx → EReal) (b : (⟨1, ![h]⟩ : Shape).Idx → EReal) : (⟨2, ![n, h]⟩ : Shape).Idx → EReal :=
  fun idx => max (preAt x adj w b (idx 0) (idx 1)) 0

/-- A layer with no activation, as an array. -/
def layerLin (x : (⟨2, ![n, fin]⟩ : Shape).Idx → EReal) (adj : (⟨2, ![n, n]⟩ : Shape).Idx → EReal)
    (w : (⟨2, ![fin, h]⟩ : Shape).Idx → EReal) (b : (⟨1, ![h]⟩ : Shape).Idx → EReal) : (⟨2, ![n, h]⟩ : Shape).Idx → EReal :=
  fun idx => preAt x adj w b (idx 0) (idx 1)

theorem layerRelu_apply (x : (⟨2, ![n, fin]⟩ : Shape).Idx → EReal) (adj : (⟨2, ![n, n]⟩ : Shape).Idx → EReal)
    (w : (⟨2, ![fin, h]⟩ : Shape).Idx → EReal) (b : (⟨1, ![h]⟩ : Shape).Idx → EReal) (i : Fin n) (j : Fin h) :
    layerRelu x adj w b (ix2 i j) = max (preAt x adj w b i j) 0 := rfl

theorem layerLin_apply (x : (⟨2, ![n, fin]⟩ : Shape).Idx → EReal) (adj : (⟨2, ![n, n]⟩ : Shape).Idx → EReal)
    (w : (⟨2, ![fin, h]⟩ : Shape).Idx → EReal) (b : (⟨1, ![h]⟩ : Shape).Idx → EReal) (i : Fin n) (j : Fin h) :
    layerLin x adj w b (ix2 i j) = preAt x adj w b i j := rfl

variable {h2 : ℕ}

/-- The two-layer network. -/
def gcn (feature : (⟨2, ![n, fin]⟩ : Shape).Idx → EReal) (adj : (⟨2, ![n, n]⟩ : Shape).Idx → EReal)
    (W1 : (⟨2, ![fin, h]⟩ : Shape).Idx → EReal) (b1 : (⟨1, ![h]⟩ : Shape).Idx → EReal)
    (W2 : (⟨2, ![h, h2]⟩ : Shape).Idx → EReal) (b2 : (⟨1, ![h2]⟩ : Shape).Idx → EReal) : (⟨2, ![n, h2]⟩ : Shape).Idx → EReal :=
  layerLin (layerRelu feature adj W1 b1) adj W2 b2

end Cert.Spec

end
-- ==== Proof.LibSumTiles.lean ====
/-
  A general lemma. A finite sum over the T·K indices of a tiled axis is the sum, over the T tiles, of each tile's sum
  over its K indices, index K·s + kk being index kk of tile s. It holds in any commutative additive monoid, so in
  particular over the extended reals, where no finiteness is needed to regroup a sum.
-/
import Mathlib.Algebra.BigOperators.Fin
import Mathlib.Logic.Equiv.Fin.Basic

namespace Cert.SumTiles

/-- Index `kk` of tile `s`. -/
def at_ {T K : ℕ} (s : Fin T) (kk : Fin K) : Fin (T * K) :=
  ⟨K * s.val + kk.val, by
    have hs := s.isLt; have hk := kk.isLt
    calc K * s.val + kk.val < K * s.val + K := Nat.add_lt_add_left hk _
      _ = K * (s.val + 1) := by rw [Nat.mul_succ]
      _ ≤ K * T := Nat.mul_le_mul_left _ hs
      _ = T * K := Nat.mul_comm _ _⟩

theorem at_val {T K : ℕ} (s : Fin T) (kk : Fin K) : (at_ s kk).val = K * s.val + kk.val := rfl

/-- A sum over a tiled axis, tile by tile. -/
theorem sum_tiles {M : Type*} [AddCommMonoid M] (T K : ℕ) (g : Fin (T * K) → M) :
    ∑ k : Fin (T * K), g k = ∑ s : Fin T, ∑ kk : Fin K, g (at_ s kk) := by
  rw [← Equiv.sum_comp finProdFinEquiv g, Fintype.sum_prod_type]
  refine Finset.sum_congr rfl fun s _ => Finset.sum_congr rfl fun kk _ => congrArg g (Fin.ext ?_)
  show kk.val + K * s.val = K * s.val + kk.val
  exact Nat.add_comm _ _

end Cert.SumTiles
-- ==== Proof.KI.Value0.lean ====
import proofs.«133894_j558345748855_1_alg».proof.Proof.KI.Dat0
import proofs.«133894_j558345748855_1_alg».proof.Proof.KI.Pay0
import proofs.«133894_j558345748855_1_alg».proof.Proof.Spec
import proofs.«133894_j558345748855_1_alg».proof.Proof.LibSumTiles

set_option maxRecDepth 16384

noncomputable section

/-! What the first layer's pipeline leaves in its output array, over the extended reals: the specification's layer of
    the four arrays the region is entered with.
    Grid point t is row block t / 16 and contraction tile t % 16. At t the kernel reads rows 1024·(t % 16) … of the
    layer's input, the adjacency tile at rows 2048·(t / 16) … and columns 1024·(t % 16) …, the whole weight matrix and
    the whole bias row. By induction along the points the accumulator after point t holds, at (p, j), the sum over
    the tiles 0 … t % 16 of that row block of  ∑ kk, adj[2048·(t/16) + p, 1024·s + kk] · support[1024·s + kk, j];
    after the sixteenth tile that is the whole contraction ∑ k, adj[row, k] · support[k, j], a sum over a tiled axis
    taken tile by tile (commutativity and associativity of + only: nothing here needs the inputs finite). The
    sixteenth tile stores the activation of that sum plus the bias, the stored blocks tile the array, and so the
    array ends at the specification's layer. -/

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-- The layer's output width, and its output array's shape. -/
local notation "HW" => 128
local notation "SOut" => S16384x128

section
variable (V : (c : Dev nD) → (b : Ref sig .tc) → Buf (Elt Ideal) ((c : Thread nD τ).loc b)) (c : Dev nD)

/-! ## The four arrays, at their literal types -/

abbrev xarr0 : S16384x128.Idx → EReal := V c main_arg0
abbrev aarr0 : S16384x16384.Idx → EReal := V c main_arg1
abbrev warr0 : S128x128.Idx → EReal := V c main_arg2
abbrev barr0 : S128.Idx → EReal := V c main_arg3

/-- The specification's layer of them. -/
abbrev layer0 : (SOut).Idx → EReal :=
  Cert.Spec.layerRelu (n := 16384) (fin := 128) (h := HW) (xarr0 V c) (aarr0 V c) (warr0 V c) (barr0 V c)

/-! ## The index maps over the grid -/

theorem idx0 : ∀ t : Fin cfg0.N,
    win0_0.index t (0 : Fin 2) = t.val % 16 ∧ win0_0.index t (1 : Fin 2) = 0
    ∧ win0_1.index t (0 : Fin 2) = t.val / 16 ∧ win0_1.index t (1 : Fin 2) = t.val % 16
    ∧ win0_2.index t (0 : Fin 2) = 0 ∧ win0_2.index t (1 : Fin 2) = 0
    ∧ win0_3.index t (0 : Fin 1) = 0
    ∧ win0_4.index t (0 : Fin 2) = t.val / 16 ∧ win0_4.index t (1 : Fin 2) = 0 :=
  (by decide +kernel : ∀ t : Fin grid0.N, _)

theorem tlt0 (t : Fin cfg0.N) : t.val < 128 := lt_of_lt_of_eq t.isLt (show cfg0.N = 128 from N_0)

/-- The array row of local row `p` of point `t`'s row block. -/
def rowOf0 (t : Fin cfg0.N) (p : Fin 2048) : Fin 16384 :=
  ⟨2048 * (t.val / 16) + p.val, by have := tlt0 t; have := p.isLt; omega⟩
/-- The contraction index of local index `kk` of point `t`'s contraction tile. -/
def colOf0 (t : Fin cfg0.N) (kk : Fin 1024) : Fin 16384 :=
  ⟨1024 * (t.val % 16) + kk.val, by have := kk.isLt; omega⟩

/-! ## The blocks, read at an entry -/

theorem xblk0_apply (t : Fin cfg0.N) (kk : Fin 1024) (f : Fin 128) :
    xblk0 V c t (ix2 kk f) = xarr0 V c (ix2 (colOf0 t kk) f) := by
  obtain ⟨e0, e1, -⟩ := idx0 t
  show V c main_arg0 (((cfg0.win 0).blk t).view.emb (ix2 kk f)) = V c main_arg0 (ix2 (colOf0 t kk) f)
  refine congrArg _ (funext fun a => Fin.ext ?_)
  match a with
  | ⟨0, _⟩ => show win0_0.index t (0 : Fin 2) * 1024 + 1 * kk.val = 1024 * (t.val % 16) + kk.val; omega
  | ⟨1, _⟩ => show win0_0.index t (1 : Fin 2) * 128 + 1 * f.val = f.val; omega

theorem ablk0_apply (t : Fin cfg0.N) (p : Fin 2048) (kk : Fin 1024) :
    ablk0 V c t (ix2 p kk) = aarr0 V c (ix2 (rowOf0 t p) (colOf0 t kk)) := by
  obtain ⟨-, -, e2, e3, -⟩ := idx0 t
  show V c main_arg1 (((cfg0.win 1).blk t).view.emb (ix2 p kk)) = V c main_arg1 (ix2 (rowOf0 t p) (colOf0 t kk))
  refine congrArg _ (funext fun a => Fin.ext ?_)
  match a with
  | ⟨0, _⟩ => show win0_1.index t (0 : Fin 2) * 2048 + 1 * p.val = 2048 * (t.val / 16) + p.val; omega
  | ⟨1, _⟩ => show win0_1.index t (1 : Fin 2) * 1024 + 1 * kk.val = 1024 * (t.val % 16) + kk.val; omega

theorem wblk0_apply (t : Fin cfg0.N) (f : Fin 128) (j : Fin HW) :
    wblk0 V c t (ix2 f j) = warr0 V c (ix2 f j) := by
  obtain ⟨-, -, -, -, e4, e5, -⟩ := idx0 t
  show V c main_arg2 (((cfg0.win 2).blk t).view.emb (ix2 f j)) = V c main_arg2 (ix2 f j)
  refine congrArg _ (funext fun a => Fin.ext ?_)
  match a with
  | ⟨0, _⟩ => show win0_2.index t (0 : Fin 2) * 128 + 1 * f.val = f.val; omega
  | ⟨1, _⟩ => show win0_2.index t (1 : Fin 2) * HW + 1 * j.val = j.val; omega

theorem bblk0_apply (t : Fin cfg0.N) (j : Fin HW) :
    bblk0 V c t (ix1 j) = barr0 V c (ix1 j) := by
  obtain ⟨-, -, -, -, -, -, e6, -⟩ := idx0 t
  show V c main_arg3 (((cfg0.win 3).blk t).view.emb (ix1 j)) = V c main_arg3 (ix1 j)
  refine congrArg _ (funext fun a => Fin.ext ?_)
  match a with
  | ⟨0, _⟩ => show win0_3.index t (0 : Fin 1) * HW + 1 * j.val = j.val; omega

/-! ## One point's addend, and the accumulator as a partial sum -/

/-- What point `t` adds to the accumulator at (p, j): its tile of the contraction. -/
def tile0 (t : Fin cfg0.N) (p : Fin 2048) (j : Fin HW) : EReal :=
  ∑ kk : Fin 1024, aarr0 V c (ix2 (rowOf0 t p) (colOf0 t kk)) * Cert.Spec.support (xarr0 V c) (warr0 V c) (colOf0 t kk) j

/-- The same for any natural number, zero past the grid. -/
def tileN0 (n : ℕ) (p : Fin 2048) (j : Fin HW) : EReal :=
  if h : n < cfg0.N then tile0 V c ⟨n, h⟩ p j else 0

theorem tileN0_of_lt (n : ℕ) (h : n < cfg0.N) (p : Fin 2048) (j : Fin HW) : tileN0 V c n p j = tile0 V c ⟨n, h⟩ p j :=
  dif_pos h

/-- One step of the body at point `t`'s blocks adds point `t`'s tile. -/
theorem step0_apply (t : Fin cfg0.N) (s : Vec Ideal S2048x128 .f32) (p : Fin 2048) (j : Fin HW) :
    k0_pay2 (xblk0 V c t) (wblk0 V c t) (ablk0 V c t) s (ix2 p j) = s (ix2 p j) + tile0 V c t p j := by
  rw [k0_pay2_apply]
  refine congrArg (s (ix2 p j) + ·) (Finset.sum_congr rfl fun kk _ => ?_)
  rw [ablk0_apply]
  refine congrArg (aarr0 V c (ix2 (rowOf0 t p) (colOf0 t kk)) * ·) (Finset.sum_congr rfl fun f _ => ?_)
  rw [xblk0_apply, wblk0_apply]

/-- The accumulator after point `n`, at (p, j): the tiles of `n`'s row block up to `n`'s. -/
theorem acc0_apply : ∀ (n : ℕ) (hn : n < cfg0.N) (p : Fin 2048) (j : Fin HW),
    accAt0 V c n hn (ix2 p j) = ∑ s ∈ Finset.range (n % 16 + 1), tileN0 V c (16 * (n / 16) + s) p j
  | 0, hn, p, j => by
    show k0_pay2 (xblk0 V c ⟨0, hn⟩) (wblk0 V c ⟨0, hn⟩) (ablk0 V c ⟨0, hn⟩) (k0_pay1 (F := Ideal)) (ix2 p j) = _
    rw [step0_apply, k0_pay1_apply, zero_add]
    show _ = ∑ s ∈ Finset.range 1, tileN0 V c (0 + s) p j
    rw [Finset.sum_range_one, tileN0_of_lt V c (0 + 0) hn]
  | n + 1, hn, p, j => by
    by_cases h : (n + 1) % 16 = 0
    · show (if (n + 1) % 16 = 0 then k0_pay2 (xblk0 V c ⟨n + 1, hn⟩) (wblk0 V c ⟨n + 1, hn⟩) (ablk0 V c ⟨n + 1, hn⟩) (k0_pay1 (F := Ideal))
          else k0_pay2 (xblk0 V c ⟨n + 1, hn⟩) (wblk0 V c ⟨n + 1, hn⟩) (ablk0 V c ⟨n + 1, hn⟩) (accAt0 V c n (Nat.lt_of_succ_lt hn))) (ix2 p j) = _
      rw [if_pos h, step0_apply, k0_pay1_apply, zero_add, h, Nat.zero_add, Finset.sum_range_one]
      have e : 16 * ((n + 1) / 16) + 0 = n + 1 := by omega
      rw [tileN0_of_lt V c _ (by rw [e]; exact hn)]
      exact congrArg (fun t => tile0 V c t p j) (Fin.ext e.symm)
    · show (if (n + 1) % 16 = 0 then k0_pay2 (xblk0 V c ⟨n + 1, hn⟩) (wblk0 V c ⟨n + 1, hn⟩) (ablk0 V c ⟨n + 1, hn⟩) (k0_pay1 (F := Ideal))
          else k0_pay2 (xblk0 V c ⟨n + 1, hn⟩) (wblk0 V c ⟨n + 1, hn⟩) (ablk0 V c ⟨n + 1, hn⟩) (accAt0 V c n (Nat.lt_of_succ_lt hn))) (ix2 p j) = _
      rw [if_neg h, step0_apply, acc0_apply n (Nat.lt_of_succ_lt hn) p j]
      have e1 : (n + 1) % 16 = n % 16 + 1 := by omega
      have e2 : (n + 1) / 16 = n / 16 := by omega
      rw [e1, e2, Finset.sum_range_succ _ (n % 16 + 1)]
      have e : 16 * (n / 16) + (n % 16 + 1) = n + 1 := by omega
      refine congrArg (_ + ·) ?_
      rw [tileN0_of_lt V c _ (by rw [e]; exact hn)]
      exact congrArg (fun t => tile0 V c t p j) (Fin.ext e.symm)

/-- On the last tile of a row block the accumulator holds the whole contraction. -/
theorem acc0_last (t : Fin cfg0.N) (h : t.val % 16 = 15) (p : Fin 2048) (j : Fin HW) :
    accAt0 V c t.val t.isLt (ix2 p j)
      = ∑ k : Fin 16384, aarr0 V c (ix2 (rowOf0 t p) k) * Cert.Spec.support (xarr0 V c) (warr0 V c) k j := by
  have hN := tlt0 t
  rw [acc0_apply, h, Finset.sum_range,
    Cert.SumTiles.sum_tiles 16 1024 (fun k : Fin 16384 => aarr0 V c (ix2 (rowOf0 t p) k) * Cert.Spec.support (xarr0 V c) (warr0 V c) k j)]
  refine Finset.sum_congr rfl fun s _ => ?_
  have hs := s.isLt
  have hlt : 16 * (t.val / 16) + s.val < cfg0.N := lt_of_lt_of_eq (by omega : 16 * (t.val / 16) + s.val < 128) (show (128 : ℕ) = cfg0.N from N_0.symm)
  rw [tileN0_of_lt V c _ hlt]
  unfold tile0
  refine Finset.sum_congr rfl fun kk _ => ?_
  have hk := kk.isLt
  have er : rowOf0 ⟨16 * (t.val / 16) + s.val, hlt⟩ p = rowOf0 t p := Fin.ext (by
    show 2048 * ((16 * (t.val / 16) + s.val) / 16) + p.val = 2048 * (t.val / 16) + p.val; omega)
  have ec : colOf0 ⟨16 * (t.val / 16) + s.val, hlt⟩ kk = Cert.SumTiles.at_ (T := 16) (K := 1024) s kk := Fin.ext (by
    show 1024 * ((16 * (t.val / 16) + s.val) % 16) + kk.val = 1024 * s.val + kk.val; omega)
  rw [er, ec]

/-! ## What a flushing point writes back, and the cover -/

theorem flushed0_eq (t : Fin cfg0.N) (hf : (cfg0.win 4).flush t = true) :
    (dat0 V c).flushed 4 t = ((cfg0.win 4).blk t).view.read (Elt Ideal) (layer0 V c) := by
  have h15 : t.val % 16 = 15 := (flush0_4 t).mp hf
  obtain ⟨-, -, -, -, -, -, -, e7, e8⟩ := idx0 t
  show (cfg0.win 4).cut (grid0.coords t) ((dat0 V c).after 4 t) = _
  rw [after0_4]
  funext y
  obtain ⟨p, j, rfl⟩ : ∃ (p : Fin 2048) (j : Fin HW), y = ix2 p j := ⟨y 0, y 1, eq_ix2 y⟩
  show k0_pay3 (accAt0 V c t.val t.isLt) (bblk0 V c t) (ix2 p j) = layer0 V c (((cfg0.win 4).blk t).view.emb (ix2 p j))
  have hemb : ((cfg0.win 4).blk t).view.emb (ix2 p j) = ix2 (rowOf0 t p) j := funext fun a => Fin.ext (by
    match a with
    | ⟨0, _⟩ => show win0_4.index t (0 : Fin 2) * 2048 + 1 * p.val = 2048 * (t.val / 16) + p.val; omega
    | ⟨1, _⟩ => show win0_4.index t (1 : Fin 2) * HW + 1 * j.val = j.val; omega)
  rw [hemb, k0_pay3_apply, acc0_last V c t h15, bblk0_apply]
  rfl

theorem mem_blk0 (t : Fin cfg0.N) (i : (SOut).Idx) :
    i ∈ ((cfg0.win 4).blk t).view.set ↔ ∀ a : Fin 2, win0_4.index t a * S2048x128.size a ≤ (i a).val ∧ (i a).val < win0_4.index t a * S2048x128.size a + S2048x128.size a := by
  show i ∈ ((View.whole main_v0).slice (win0_4.rect t)).set ↔ _
  rw [View.set_slice_whole, Rect.mem_set_unit]
  exact Iff.rfl

theorem cover0 (i : (SOut).Idx) : ∃ t : Fin cfg0.N, (cfg0.win 4).flush t = true ∧ i ∈ ((cfg0.win 4).blk t).view.set := by
  have hi0 : (i 0).val < 16384 := (i 0).isLt
  have hi1 : (i 1).val < HW := (i 1).isLt
  have hlt : 16 * ((i 0).val / 2048) + 15 < cfg0.N := lt_of_lt_of_eq (by omega : 16 * ((i 0).val / 2048) + 15 < 128) (show (128 : ℕ) = cfg0.N from N_0.symm)
  refine ⟨⟨16 * ((i 0).val / 2048) + 15, hlt⟩, (flush0_4 _).mpr (by show (16 * ((i 0).val / 2048) + 15) % 16 = 15; omega), ?_⟩
  obtain ⟨-, -, -, -, -, -, -, e7, e8⟩ := idx0 ⟨16 * ((i 0).val / 2048) + 15, hlt⟩
  rw [mem_blk0]
  intro a
  match a with
  | ⟨0, _⟩ =>
    show win0_4.index ⟨16 * ((i 0).val / 2048) + 15, hlt⟩ (0 : Fin 2) * 2048 ≤ (i 0).val ∧ (i 0).val < win0_4.index ⟨16 * ((i 0).val / 2048) + 15, hlt⟩ (0 : Fin 2) * 2048 + 2048
    rw [e7]; show (16 * ((i 0).val / 2048) + 15) / 16 * 2048 ≤ (i 0).val ∧ (i 0).val < (16 * ((i 0).val / 2048) + 15) / 16 * 2048 + 2048; omega
  | ⟨1, _⟩ =>
    show win0_4.index ⟨16 * ((i 0).val / 2048) + 15, hlt⟩ (1 : Fin 2) * HW ≤ (i 1).val ∧ (i 1).val < win0_4.index ⟨16 * ((i 0).val / 2048) + 15, hlt⟩ (1 : Fin 2) * HW + HW
    rw [e8]; omega

/-- The output array after the region: the specification's layer of the four arrays it was entered with. -/
theorem arr0_eq : (dat0 V c).arrAt 4 cfg0.N = layer0 V c :=
  (dat0 V c).arrAt_eq_of_cover 4 (layer0 V c) (fun t hf => flushed0_eq V c t hf) (cover0)

end

end Cert.KernelIdeal.Hand

end
-- ==== Proof.KI.Pay1.lean ====
import proofs.«133894_j558345748855_1_alg».proof.Proof.Gen.KernelIdeal.Skeleton
import proofs.«133894_j558345748855_1_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

noncomputable section

/-! The second layer's kernel body reads, over the extended reals, as three functions of what it loads, entry by entry.
    Changes of float format are the identity and a matrix product into a zero accumulator is a finite sum, so with
    `x` the tile of input rows (1024 × 128), `w` the weights (128 × 64), `a` the adjacency tile (2048 × 1024), `s` the
    accumulator (2048 × 64) and `b` the bias row:
      the reset value is 0;
      the accumulator's new value at (p, j) is  s[p, j] + ∑ kk, a[p, kk] · (∑ f, x[kk, f] · w[f, j]);
      the stored output at (p, j) is  s[p, j] + b[j]. -/

namespace Cert.KernelIdeal.Hand

open Cert.KernelIdeal Cert.KernelIdeal.Gen
open Idealize.ShloMosaic Idealize.ShloMosaic.ValueIdx

/-- The layer's activation: none. -/
abbrev act1 (v : EReal) : EReal := v

theorem k1_pay1_apply (y : S2048x64.Idx) : k1_pay1 (F := Ideal) y = 0 := by
  unfold k1_pay1
  rw [shapeCast_self, broadcast_apply]
  exact Ideal.ofBits_zero_f32

theorem k1_pay2_apply (x : Vec Ideal S1024x128 .f32) (w : Vec Ideal S128x64 .f32) (a : Vec Ideal S2048x1024 .f32) (s : Vec Ideal S2048x64 .f32)
    (p : Fin 2048) (j : Fin 64) :
    k1_pay2 x w a s (ix2 p j) = s (ix2 p j) + ∑ kk : Fin 1024, a (ix2 p kk) * ∑ f : Fin 128, x (ix2 kk f) * w (ix2 f j) := by
  unfold k1_pay2
  rw [shapeCast_self, addf_apply]
  congr 1
  rw [show dot_S2048x1024_S1024x64_S2048x64_1_0_0_1_n_n = DotDims.plain 2048 1024 64 from rfl, MatmulPlain.matmul_zero_apply]
  refine Finset.sum_congr rfl fun kk _ => ?_
  rw [truncf_apply, truncf_apply]
  congr 1
  rw [show dot_S1024x128_S128x64_S1024x64_1_0_0_1_n_n = DotDims.plain 1024 128 64 from rfl, MatmulPlain.matmul_zero_apply]
  refine Finset.sum_congr rfl fun f _ => ?_
  rw [truncf_apply, truncf_apply, shapeCast_self]

theorem k1_pay3_apply (s : Vec Ideal S2048x64 .f32) (b : Vec Ideal S64 .f32) (p : Fin 2048) (j : Fin 64) :
    k1_pay3 s b (ix2 p j) = act1 (s (ix2 p j) + b (ix1 j)) := by
  unfold k1_pay3
  rw [addf_apply, broadcastTo_1b_ab_apply, shapeCast_a_1a_apply]

end Cert.KernelIdeal.Hand

end
-- ==== Proof.KI.Value1.lean ====
import proofs.«133894_j558345748855_1_alg».proof.Proof.KI.Dat1
import proofs.«133894_j558345748855_1_alg».proof.Proof.KI.Pay1
import proofs.«133894_j558345748855_1_alg».proof.Proof.Spec
import proofs.«133894_j558345748855_1_alg».proof.Proof.LibSumTiles

set_option maxRecDepth 16384

noncomputable section

/-! What the second layer's pipeline leaves in its output array, over the extended reals: the specification's layer of
    the four arrays the region is entered with.
    Grid point t is row block t / 16 and contraction tile t % 16. At t the kernel reads rows 1024·(t % 16) … of the
    layer's input, the adjacency tile at rows 2048·(t / 16) … and columns 1024·(t % 16) …, the whole weight matrix and
    the whole bias row. By induction along the points the accumulator after point t holds, at (p, j), the sum over
    the tiles 0 … t % 16 of that row block of  ∑ kk, adj[2048·(t/16) + p, 1024·s + kk] · support[1024·s + kk, j];
    after the sixteenth tile that is the whole contraction ∑ k, adj[row, k] · support[k, j], a sum over a tiled axis
    taken tile by tile (commutativity and associativity of + only: nothing here needs the inputs finite). The
    sixteenth tile stores the activation of that sum plus the bias, the stored blocks tile the array, and so the
    array ends at the specification's layer. -/

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-- The layer's output width, and its output array's shape. -/
local notation "HW" => 64
local notation "SOut" => S16384x64

section
variable (V : (c : Dev nD) → (b : Ref sig .tc) → Buf (Elt Ideal) ((c : Thread nD τ).loc b)) (c : Dev nD)

/-! ## The four arrays, at their literal types -/

abbrev xarr1 : S16384x128.Idx → EReal := V c main_v0
abbrev aarr1 : S16384x16384.Idx → EReal := V c main_arg1
abbrev warr1 : S128x64.Idx → EReal := V c main_arg4
abbrev barr1 : S64.Idx → EReal := V c main_arg5

/-- The specification's layer of them. -/
abbrev layer1 : (SOut).Idx → EReal :=
  Cert.Spec.layerLin (n := 16384) (fin := 128) (h := HW) (xarr1 V c) (aarr1 V c) (warr1 V c) (barr1 V c)

/-! ## The index maps over the grid -/

theorem idx1 : ∀ t : Fin cfg1.N,
    win1_0.index t (0 : Fin 2) = t.val % 16 ∧ win1_0.index t (1 : Fin 2) = 0
    ∧ win1_1.index t (0 : Fin 2) = t.val / 16 ∧ win1_1.index t (1 : Fin 2) = t.val % 16
    ∧ win1_2.index t (0 : Fin 2) = 0 ∧ win1_2.index t (1 : Fin 2) = 0
    ∧ win1_3.index t (0 : Fin 1) = 0
    ∧ win1_4.index t (0 : Fin 2) = t.val / 16 ∧ win1_4.index t (1 : Fin 2) = 0 :=
  (by decide +kernel : ∀ t : Fin grid1.N, _)

theorem tlt1 (t : Fin cfg1.N) : t.val < 128 := lt_of_lt_of_eq t.isLt (show cfg1.N = 128 from N_1)

/-- The array row of local row `p` of point `t`'s row block. -/
def rowOf1 (t : Fin cfg1.N) (p : Fin 2048) : Fin 16384 :=
  ⟨2048 * (t.val / 16) + p.val, by have := tlt1 t; have := p.isLt; omega⟩
/-- The contraction index of local index `kk` of point `t`'s contraction tile. -/
def colOf1 (t : Fin cfg1.N) (kk : Fin 1024) : Fin 16384 :=
  ⟨1024 * (t.val % 16) + kk.val, by have := kk.isLt; omega⟩

/-! ## The blocks, read at an entry -/

theorem xblk1_apply (t : Fin cfg1.N) (kk : Fin 1024) (f : Fin 128) :
    xblk1 V c t (ix2 kk f) = xarr1 V c (ix2 (colOf1 t kk) f) := by
  obtain ⟨e0, e1, -⟩ := idx1 t
  show V c main_v0 (((cfg1.win 0).blk t).view.emb (ix2 kk f)) = V c main_v0 (ix2 (colOf1 t kk) f)
  refine congrArg _ (funext fun a => Fin.ext ?_)
  match a with
  | ⟨0, _⟩ => show win1_0.index t (0 : Fin 2) * 1024 + 1 * kk.val = 1024 * (t.val % 16) + kk.val; omega
  | ⟨1, _⟩ => show win1_0.index t (1 : Fin 2) * 128 + 1 * f.val = f.val; omega

theorem ablk1_apply (t : Fin cfg1.N) (p : Fin 2048) (kk : Fin 1024) :
    ablk1 V c t (ix2 p kk) = aarr1 V c (ix2 (rowOf1 t p) (colOf1 t kk)) := by
  obtain ⟨-, -, e2, e3, -⟩ := idx1 t
  show V c main_arg1 (((cfg1.win 1).blk t).view.emb (ix2 p kk)) = V c main_arg1 (ix2 (rowOf1 t p) (colOf1 t kk))
  refine congrArg _ (funext fun a => Fin.ext ?_)
  match a with
  | ⟨0, _⟩ => show win1_1.index t (0 : Fin 2) * 2048 + 1 * p.val = 2048 * (t.val / 16) + p.val; omega
  | ⟨1, _⟩ => show win1_1.index t (1 : Fin 2) * 1024 + 1 * kk.val = 1024 * (t.val % 16) + kk.val; omega

theorem wblk1_apply (t : Fin cfg1.N) (f : Fin 128) (j : Fin HW) :
    wblk1 V c t (ix2 f j) = warr1 V c (ix2 f j) := by
  obtain ⟨-, -, -, -, e4, e5, -⟩ := idx1 t
  show V c main_arg4 (((cfg1.win 2).blk t).view.emb (ix2 f j)) = V c main_arg4 (ix2 f j)
  refine congrArg _ (funext fun a => Fin.ext ?_)
  match a with
  | ⟨0, _⟩ => show win1_2.index t (0 : Fin 2) * 128 + 1 * f.val = f.val; omega
  | ⟨1, _⟩ => show win1_2.index t (1 : Fin 2) * HW + 1 * j.val = j.val; omega

theorem bblk1_apply (t : Fin cfg1.N) (j : Fin HW) :
    bblk1 V c t (ix1 j) = barr1 V c (ix1 j) := by
  obtain ⟨-, -, -, -, -, -, e6, -⟩ := idx1 t
  show V c main_arg5 (((cfg1.win 3).blk t).view.emb (ix1 j)) = V c main_arg5 (ix1 j)
  refine congrArg _ (funext fun a => Fin.ext ?_)
  match a with
  | ⟨0, _⟩ => show win1_3.index t (0 : Fin 1) * HW + 1 * j.val = j.val; omega

/-! ## One point's addend, and the accumulator as a partial sum -/

/-- What point `t` adds to the accumulator at (p, j): its tile of the contraction. -/
def tile1 (t : Fin cfg1.N) (p : Fin 2048) (j : Fin HW) : EReal :=
  ∑ kk : Fin 1024, aarr1 V c (ix2 (rowOf1 t p) (colOf1 t kk)) * Cert.Spec.support (xarr1 V c) (warr1 V c) (colOf1 t kk) j

/-- The same for any natural number, zero past the grid. -/
def tileN1 (n : ℕ) (p : Fin 2048) (j : Fin HW) : EReal :=
  if h : n < cfg1.N then tile1 V c ⟨n, h⟩ p j else 0

theorem tileN1_of_lt (n : ℕ) (h : n < cfg1.N) (p : Fin 2048) (j : Fin HW) : tileN1 V c n p j = tile1 V c ⟨n, h⟩ p j :=
  dif_pos h

/-- One step of the body at point `t`'s blocks adds point `t`'s tile. -/
theorem step1_apply (t : Fin cfg1.N) (s : Vec Ideal S2048x64 .f32) (p : Fin 2048) (j : Fin HW) :
    k1_pay2 (xblk1 V c t) (wblk1 V c t) (ablk1 V c t) s (ix2 p j) = s (ix2 p j) + tile1 V c t p j := by
  rw [k1_pay2_apply]
  refine congrArg (s (ix2 p j) + ·) (Finset.sum_congr rfl fun kk _ => ?_)
  rw [ablk1_apply]
  refine congrArg (aarr1 V c (ix2 (rowOf1 t p) (colOf1 t kk)) * ·) (Finset.sum_congr rfl fun f _ => ?_)
  rw [xblk1_apply, wblk1_apply]

/-- The accumulator after point `n`, at (p, j): the tiles of `n`'s row block up to `n`'s. -/
theorem acc1_apply : ∀ (n : ℕ) (hn : n < cfg1.N) (p : Fin 2048) (j : Fin HW),
    accAt1 V c n hn (ix2 p j) = ∑ s ∈ Finset.range (n % 16 + 1), tileN1 V c (16 * (n / 16) + s) p j
  | 0, hn, p, j => by
    show k1_pay2 (xblk1 V c ⟨0, hn⟩) (wblk1 V c ⟨0, hn⟩) (ablk1 V c ⟨0, hn⟩) (k1_pay1 (F := Ideal)) (ix2 p j) = _
    rw [step1_apply, k1_pay1_apply, zero_add]
    show _ = ∑ s ∈ Finset.range 1, tileN1 V c (0 + s) p j
    rw [Finset.sum_range_one, tileN1_of_lt V c (0 + 0) hn]
  | n + 1, hn, p, j => by
    by_cases h : (n + 1) % 16 = 0
    · show (if (n + 1) % 16 = 0 then k1_pay2 (xblk1 V c ⟨n + 1, hn⟩) (wblk1 V c ⟨n + 1, hn⟩) (ablk1 V c ⟨n + 1, hn⟩) (k1_pay1 (F := Ideal))
          else k1_pay2 (xblk1 V c ⟨n + 1, hn⟩) (wblk1 V c ⟨n + 1, hn⟩) (ablk1 V c ⟨n + 1, hn⟩) (accAt1 V c n (Nat.lt_of_succ_lt hn))) (ix2 p j) = _
      rw [if_pos h, step1_apply, k1_pay1_apply, zero_add, h, Nat.zero_add, Finset.sum_range_one]
      have e : 16 * ((n + 1) / 16) + 0 = n + 1 := by omega
      rw [tileN1_of_lt V c _ (by rw [e]; exact hn)]
      exact congrArg (fun t => tile1 V c t p j) (Fin.ext e.symm)
    · show (if (n + 1) % 16 = 0 then k1_pay2 (xblk1 V c ⟨n + 1, hn⟩) (wblk1 V c ⟨n + 1, hn⟩) (ablk1 V c ⟨n + 1, hn⟩) (k1_pay1 (F := Ideal))
          else k1_pay2 (xblk1 V c ⟨n + 1, hn⟩) (wblk1 V c ⟨n + 1, hn⟩) (ablk1 V c ⟨n + 1, hn⟩) (accAt1 V c n (Nat.lt_of_succ_lt hn))) (ix2 p j) = _
      rw [if_neg h, step1_apply, acc1_apply n (Nat.lt_of_succ_lt hn) p j]
      have e1 : (n + 1) % 16 = n % 16 + 1 := by omega
      have e2 : (n + 1) / 16 = n / 16 := by omega
      rw [e1, e2, Finset.sum_range_succ _ (n % 16 + 1)]
      have e : 16 * (n / 16) + (n % 16 + 1) = n + 1 := by omega
      refine congrArg (_ + ·) ?_
      rw [tileN1_of_lt V c _ (by rw [e]; exact hn)]
      exact congrArg (fun t => tile1 V c t p j) (Fin.ext e.symm)

/-- On the last tile of a row block the accumulator holds the whole contraction. -/
theorem acc1_last (t : Fin cfg1.N) (h : t.val % 16 = 15) (p : Fin 2048) (j : Fin HW) :
    accAt1 V c t.val t.isLt (ix2 p j)
      = ∑ k : Fin 16384, aarr1 V c (ix2 (rowOf1 t p) k) * Cert.Spec.support (xarr1 V c) (warr1 V c) k j := by
  have hN := tlt1 t
  rw [acc1_apply, h, Finset.sum_range,
    Cert.SumTiles.sum_tiles 16 1024 (fun k : Fin 16384 => aarr1 V c (ix2 (rowOf1 t p) k) * Cert.Spec.support (xarr1 V c) (warr1 V c) k j)]
  refine Finset.sum_congr rfl fun s _ => ?_
  have hs := s.isLt
  have hlt : 16 * (t.val / 16) + s.val < cfg1.N := lt_of_lt_of_eq (by omega : 16 * (t.val / 16) + s.val < 128) (show (128 : ℕ) = cfg1.N from N_1.symm)
  rw [tileN1_of_lt V c _ hlt]
  unfold tile1
  refine Finset.sum_congr rfl fun kk _ => ?_
  have hk := kk.isLt
  have er : rowOf1 ⟨16 * (t.val / 16) + s.val, hlt⟩ p = rowOf1 t p := Fin.ext (by
    show 2048 * ((16 * (t.val / 16) + s.val) / 16) + p.val = 2048 * (t.val / 16) + p.val; omega)
  have ec : colOf1 ⟨16 * (t.val / 16) + s.val, hlt⟩ kk = Cert.SumTiles.at_ (T := 16) (K := 1024) s kk := Fin.ext (by
    show 1024 * ((16 * (t.val / 16) + s.val) % 16) + kk.val = 1024 * s.val + kk.val; omega)
  rw [er, ec]

/-! ## What a flushing point writes back, and the cover -/

theorem flushed1_eq (t : Fin cfg1.N) (hf : (cfg1.win 4).flush t = true) :
    (dat1 V c).flushed 4 t = ((cfg1.win 4).blk t).view.read (Elt Ideal) (layer1 V c) := by
  have h15 : t.val % 16 = 15 := (flush1_4 t).mp hf
  obtain ⟨-, -, -, -, -, -, -, e7, e8⟩ := idx1 t
  show (cfg1.win 4).cut (grid1.coords t) ((dat1 V c).after 4 t) = _
  rw [after1_4]
  funext y
  obtain ⟨p, j, rfl⟩ : ∃ (p : Fin 2048) (j : Fin HW), y = ix2 p j := ⟨y 0, y 1, eq_ix2 y⟩
  show k1_pay3 (accAt1 V c t.val t.isLt) (bblk1 V c t) (ix2 p j) = layer1 V c (((cfg1.win 4).blk t).view.emb (ix2 p j))
  have hemb : ((cfg1.win 4).blk t).view.emb (ix2 p j) = ix2 (rowOf1 t p) j := funext fun a => Fin.ext (by
    match a with
    | ⟨0, _⟩ => show win1_4.index t (0 : Fin 2) * 2048 + 1 * p.val = 2048 * (t.val / 16) + p.val; omega
    | ⟨1, _⟩ => show win1_4.index t (1 : Fin 2) * HW + 1 * j.val = j.val; omega)
  rw [hemb, k1_pay3_apply, acc1_last V c t h15, bblk1_apply]
  rfl

theorem mem_blk1 (t : Fin cfg1.N) (i : (SOut).Idx) :
    i ∈ ((cfg1.win 4).blk t).view.set ↔ ∀ a : Fin 2, win1_4.index t a * S2048x64.size a ≤ (i a).val ∧ (i a).val < win1_4.index t a * S2048x64.size a + S2048x64.size a := by
  show i ∈ ((View.whole main_v1).slice (win1_4.rect t)).set ↔ _
  rw [View.set_slice_whole, Rect.mem_set_unit]
  exact Iff.rfl

theorem cover1 (i : (SOut).Idx) : ∃ t : Fin cfg1.N, (cfg1.win 4).flush t = true ∧ i ∈ ((cfg1.win 4).blk t).view.set := by
  have hi0 : (i 0).val < 16384 := (i 0).isLt
  have hi1 : (i 1).val < HW := (i 1).isLt
  have hlt : 16 * ((i 0).val / 2048) + 15 < cfg1.N := lt_of_lt_of_eq (by omega : 16 * ((i 0).val / 2048) + 15 < 128) (show (128 : ℕ) = cfg1.N from N_1.symm)
  refine ⟨⟨16 * ((i 0).val / 2048) + 15, hlt⟩, (flush1_4 _).mpr (by show (16 * ((i 0).val / 2048) + 15) % 16 = 15; omega), ?_⟩
  obtain ⟨-, -, -, -, -, -, -, e7, e8⟩ := idx1 ⟨16 * ((i 0).val / 2048) + 15, hlt⟩
  rw [mem_blk1]
  intro a
  match a with
  | ⟨0, _⟩ =>
    show win1_4.index ⟨16 * ((i 0).val / 2048) + 15, hlt⟩ (0 : Fin 2) * 2048 ≤ (i 0).val ∧ (i 0).val < win1_4.index ⟨16 * ((i 0).val / 2048) + 15, hlt⟩ (0 : Fin 2) * 2048 + 2048
    rw [e7]; show (16 * ((i 0).val / 2048) + 15) / 16 * 2048 ≤ (i 0).val ∧ (i 0).val < (16 * ((i 0).val / 2048) + 15) / 16 * 2048 + 2048; omega
  | ⟨1, _⟩ =>
    show win1_4.index ⟨16 * ((i 0).val / 2048) + 15, hlt⟩ (1 : Fin 2) * HW ≤ (i 1).val ∧ (i 1).val < win1_4.index ⟨16 * ((i 0).val / 2048) + 15, hlt⟩ (1 : Fin 2) * HW + HW
    rw [e8]; omega

/-- The output array after the region: the specification's layer of the four arrays it was entered with. -/
theorem arr1_eq : (dat1 V c).arrAt 4 cfg1.N = layer1 V c :=
  (dat1 V c).arrAt_eq_of_cover 4 (layer1 V c) (fun t hf => flushed1_eq V c t hf) (cover1)

end

end Cert.KernelIdeal.Hand

end
-- ==== Proof.RefValue.lean ====
/-
  The reference program computes the specification's network.
  Its run ends with the result buffer at the composed term of its thirteen host operations; read at an index (p, q)
  that term is, operation by operation,
      ∑ k, adj[p, k] · (∑ f, max ((∑ k', adj[k, k'] · (∑ f', x[k', f'] · W1[f', f])) + b1[f]) 0 · W2[f, q])  +  b2[q],
  which is the specification's entry (p, q) with the sums in the same order, so nothing beyond unfolding is used.
-/
import proofs.«133894_j558345748855_1_alg».proof.Defs
import proofs.«133894_j558345748855_1_alg».proof.Proof.Gen.ReferenceIdeal.Run
import proofs.«133894_j558345748855_1_alg».proof.Proof.Gen.ReferenceIdeal.Read
import proofs.«133894_j558345748855_1_alg».proof.Proof.Spec
import Idealize.ShloMosaic.Lib.ValueIdx
import Idealize.ShloMosaic.Lib.Pipeline.Value
import Idealize.ShloMosaic.PureOps.Ideal.Laws
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.ReferenceIdeal.Read

/-! ## The operand indices of each operation, in coordinates -/

/-- The first layer's aggregation reads the adjacency matrix at (p, k). -/
theorem lidx_v1 (p : Fin 16384) (q : Fin 128) (k : Fin 16384) : lidx_main_v1 (ix2 p q) k = ix2 p k :=
  funext fun a => Fin.ext (by match a with | ⟨0, _⟩ => rfl | ⟨1, _⟩ => rfl)
/-- The first layer's aggregation reads the projected features at (k, q). -/
theorem ridx_v1 (p : Fin 16384) (q : Fin 128) (k : Fin 16384) : ridx_main_v1 (ix2 p q) k = ix2 k q :=
  funext fun a => Fin.ext (by match a with | ⟨0, _⟩ => rfl | ⟨1, _⟩ => rfl)
/-- The first projection reads the features at (k, f). -/
theorem lidx_v0 (k : Fin 16384) (q : Fin 128) (f : Fin 128) : lidx_main_v0 (ix2 k q) f = ix2 k f :=
  funext fun a => Fin.ext (by match a with | ⟨0, _⟩ => rfl | ⟨1, _⟩ => rfl)
/-- The first projection reads the weights at (f, q). -/
theorem ridx_v0 (k : Fin 16384) (q : Fin 128) (f : Fin 128) : ridx_main_v0 (ix2 k q) f = ix2 f q :=
  funext fun a => Fin.ext (by match a with | ⟨0, _⟩ => rfl | ⟨1, _⟩ => rfl)
/-- The first bias, broadcast twice, is read at q. -/
theorem idx_v3 (p : Fin 16384) (q : Fin 128) : idx_main_v2 (idx_main_v3 (ix2 p q)) = ix1 q :=
  funext fun a => Fin.ext (by match a with | ⟨0, _⟩ => rfl)
/-- The second layer's aggregation reads the adjacency matrix at (p, k). -/
theorem lidx_v7 (p : Fin 16384) (q : Fin 64) (k : Fin 16384) : lidx_main_v7 (ix2 p q) k = ix2 p k :=
  funext fun a => Fin.ext (by match a with | ⟨0, _⟩ => rfl | ⟨1, _⟩ => rfl)
/-- The second layer's aggregation reads the projected hidden features at (k, q). -/
theorem ridx_v7 (p : Fin 16384) (q : Fin 64) (k : Fin 16384) : ridx_main_v7 (ix2 p q) k = ix2 k q :=
  funext fun a => Fin.ext (by match a with | ⟨0, _⟩ => rfl | ⟨1, _⟩ => rfl)
/-- The second projection reads the hidden features at (k, f). -/
theorem lidx_v6 (k : Fin 16384) (q : Fin 64) (f : Fin 128) : lidx_main_v6 (ix2 k q) f = ix2 k f :=
  funext fun a => Fin.ext (by match a with | ⟨0, _⟩ => rfl | ⟨1, _⟩ => rfl)
/-- The second projection reads the weights at (f, q). -/
theorem ridx_v6 (k : Fin 16384) (q : Fin 64) (f : Fin 128) : ridx_main_v6 (ix2 k q) f = ix2 f q :=
  funext fun a => Fin.ext (by match a with | ⟨0, _⟩ => rfl | ⟨1, _⟩ => rfl)
/-- The second bias, broadcast twice, is read at q. -/
theorem idx_v9 (p : Fin 16384) (q : Fin 64) : idx_main_v8 (idx_main_v9 (ix2 p q)) = ix1 q :=
  funext fun a => Fin.ext (by match a with | ⟨0, _⟩ => rfl)

/-! ## The two layers -/

/-- The clamped first layer, entry by entry: the reference's hidden features are the specification's. -/
theorem hidden_apply (x0 : (⟨S16384x128, .f32⟩ : BufTy).Contents (Elt Ideal)) (x1 : (⟨S16384x16384, .f32⟩ : BufTy).Contents (Elt Ideal))
    (x2 : (⟨S128x128, .f32⟩ : BufTy).Contents (Elt Ideal)) (x3 : (⟨S128, .f32⟩ : BufTy).Contents (Elt Ideal)) (p : Fin 16384) (q : Fin 128) :
    val_main_v5 (F := Ideal) x0 x1 x2 x3 (ix2 p q)
      = Cert.Spec.layerRelu (n := 16384) (fin := 128) (h := 128) x0 x1 x2 x3 (ix2 p q) := by
  rw [val_main_v5_apply, val_main_v4_apply, val_main_v1_apply, val_main_v3_apply, val_main_v2_apply,
    val_main_call0_v0_apply, val_main_call0_cst_apply, Cert.Spec.layerRelu_apply]
  simp only [val_main_v0_apply, lidx_v1, ridx_v1, lidx_v0, ridx_v0, idx_v3, Ideal.maximumf_def, Ideal.addf_def,
    Ideal.ofBits_def, Ideal.ofBits_zero_f32, Cert.Spec.preAt, Cert.Spec.support]

/-- The reference's result is the specification's network of its six arguments. -/
theorem result_eq (x0 : (⟨S16384x128, .f32⟩ : BufTy).Contents (Elt Ideal)) (x1 : (⟨S16384x16384, .f32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) :
    val_main_v10 (F := Ideal) x0 x1 x2 x3 x4 x5
      = Cert.Spec.gcn (n := 16384) (fin := 128) (h := 128) (h2 := 64) x0 x1 x2 x3 x4 x5 := by
  funext j
  obtain ⟨p, q, rfl⟩ : ∃ (p : Fin 16384) (q : Fin 64), j = ix2 p q := ⟨j 0, j 1, eq_ix2 j⟩
  rw [val_main_v10_apply, val_main_v7_apply, val_main_v9_apply, val_main_v8_apply, Cert.Spec.gcn, Cert.Spec.layerLin_apply]
  simp only [val_main_v6_apply, lidx_v7, ridx_v7, lidx_v6, ridx_v6, idx_v9, hidden_apply, Ideal.addf_def,
    Cert.Spec.preAt, Cert.Spec.support]

/-- The reference's run ends with its result at the specification's network of the six arguments, and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v10)
        = Cert.Spec.gcn (n := 16384) (fin := 128) (h := 128) (h2 := 64) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨(h c).1.trans ((val_main_v10_eq (F := Ideal) _ _ _ _ _ _).trans (result_eq _ _ _ _ _ _)), (h c).2⟩)
    (Cert.ReferenceIdeal.Value.run (F := Ideal) m ρ)

end Cert.ReferenceIdeal.RefValue

end
-- ==== Proof.lean ====
/-
  A two-layer graph convolution on 16384 nodes: layer(x, w, b) = adj · (x · w) + b over ONE dense adjacency matrix,
  the first layer clamped below at zero. The kernel runs each layer as one pipelined region over an 8 × 16 grid: for a
  block of 2048 output rows it walks the contraction axis in sixteen tiles of 1024, projects the tile's input rows
  through the small weight matrix, multiplies by the adjacency tile and adds into an accumulator that is reset on the
  first tile; on the sixteenth it adds the bias (and clamps, in the first layer) and stores the block. The reference
  is the same two layers as whole-array products.
  Over the extended reals the changes of float format vanish and a matrix product into a zero accumulator is a finite
  sum, so per layer both sides are ∑ k, adj[i, k] · (∑ f, x[k, f] · w[f, j]) + b[j]; the kernel only takes the sum over
  k tile by tile, which needs commutativity and associativity of + alone. So the finiteness of the inputs is never used.
  The frames: each region's body is run in its three cases (first tile, middle tile, last tile), the region invariant
  carrying the accumulator at exactly the partial sum, and the two regions are composed in order, the second entered
  from the first one's exit contents (Proof/KI for the idealized program, Proof/K the same text for the word-level one).
  The values: Proof/KI/Value0 and Value1 read each region's output array as the specification's layer (Proof/Spec),
  Proof/RefValue reads the reference's run as the specification's network; here the two are joined.
-/
import proofs.«133894_j558345748855_1_alg».proof.Defs
import proofs.«133894_j558345748855_1_alg».proof.Proof.Gen.Kernel
import proofs.«133894_j558345748855_1_alg».proof.Proof.Gen.KernelIdeal
import proofs.«133894_j558345748855_1_alg».proof.Proof.Gen.ReferenceIdeal
import proofs.«133894_j558345748855_1_alg».proof.Proof.Gen.Pre_finite_inputs
import proofs.«133894_j558345748855_1_alg».proof.Proof.K.Run
import proofs.«133894_j558345748855_1_alg».proof.Proof.KI.Run
import proofs.«133894_j558345748855_1_alg».proof.Proof.KI.Value0
import proofs.«133894_j558345748855_1_alg».proof.Proof.KI.Value1
import proofs.«133894_j558345748855_1_alg».proof.Proof.RefValue

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.RefValue.run_spec m ρ)

/-- The ideal pass rewrote nothing: the idealization is the program's own text read over the extended reals. -/
theorem preserves : Cert.preserves_Kernel_KernelIdeal := trivial

open Cert.KernelIdeal Cert.KernelIdeal.Gen Cert.KernelIdeal.Hand in
/-- What the kernel's second region leaves in the result array: the second layer of the first layer's output, which
    is what the first region left in its own output array; every other array either region reads is an argument. -/
theorem kernel_result (m : (ℓ : Loc nD τ sig) → Buf (Elt Ideal) ℓ) (c : Dev nD) :
    (dat1 (V1 m) c).arrAt 4 cfg1.N
      = Cert.Spec.gcn (n := 16384) (fin := 128) (h := 128) (h2 := 64) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5)) := by
  rw [arr1_eq (V1 m) c]
  show Cert.Spec.layerLin (n := 16384) (fin := 128) (h := 64) (V1 m c main_v0) (V1 m c main_arg1) (V1 m c main_arg4) (V1 m c main_arg5) = _
  rw [V1_main_v0, V1_main_arg1, V1_main_arg4, V1_main_arg5, arr0_eq (V0 m) c]
  rfl

theorem algebraic : Cert.algebraic_KernelIdeal_ReferenceIdeal := by
  intro m ρ m' ρ' _ hagree
  refine ⟨_, (θ_run Cert.KernelIdeal.defs _ _).mono (fun _ h c => ⟨(h c).1.trans (kernel_result m c), (h c).2⟩)
    (Cert.KernelIdeal.Hand.run (F := Ideal) m ρ), ?_⟩
  refine (θ_run Cert.ReferenceIdeal.defs _ _).mono (fun _ h c => ⟨(h c).1.trans ?_, (h c).2⟩)
    (Cert.ReferenceIdeal.RefValue.run_spec m' ρ')
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
